-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x512 : Shape := ⟨2, ![6144, 512]⟩
abbrev S49152x2048 : Shape := ⟨2, ![49152, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S4096x51 : Shape := ⟨2, ![4096, 51]⟩
abbrev S51 : Shape := ⟨1, ![51]⟩
abbrev S22801x51 : Shape := ⟨2, ![22801, 51]⟩
abbrev S6144 : Shape := ⟨1, ![6144]⟩
abbrev S49152x2 : Shape := ⟨2, ![49152, 2]⟩
abbrev S_ : Shape := ⟨0, ![]⟩

class Facts : Prop where
  bcast_S_S6144x512 : S_.BroadcastsInDim S6144x512 (![] : Fin 0 → Fin S6144x512.rank)
  reducesTo_S6144x512_S_d0_1 : S6144x512.ReducesTo [0, 1] S_
  h_S_ : 0 < S_.numel
  bcast_S_S49152x2048 : S_.BroadcastsInDim S49152x2048 (![] : Fin 0 → Fin S49152x2048.rank)
  reducesTo_S49152x2048_S_d0_1 : S49152x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096x51 : S_.BroadcastsInDim S4096x51 (![] : Fin 0 → Fin S4096x51.rank)
  reducesTo_S4096x51_S_d0_1 : S4096x51.ReducesTo [0, 1] S_
  bcast_S_S51 : S_.BroadcastsInDim S51 (![] : Fin 0 → Fin S51.rank)
  reducesTo_S51_S_d0 : S51.ReducesTo [0] S_
  bcast_S_S22801x51 : S_.BroadcastsInDim S22801x51 (![] : Fin 0 → Fin S22801x51.rank)
  reducesTo_S22801x51_S_d0_1 : S22801x51.ReducesTo [0, 1] S_

variable [Facts]

def fn_part3 {F : FTy → Type} [FloatOps F] (main_v48 : IVec S_ 1) (main_v49 : FVec F S22801x51 .f32) (main_v50 : FVec F S22801x51 .f32) : IVec S_ 1 :=
  let main_v51 : IVec S22801x51 1 := cmpf .olt main_v49 main_v50
  let main_c_19 : IVec S_ 1 := constantI S_ 1 1#1
  let main_v52 : IVec S_ 1 := (fun x v => Host.reduce IntOp.andi x v reducesTo_S22801x51_S_d0_1 h_S_) main_v51 main_c_19
  let main_v53 : IVec S_ 1 := andi main_v48 main_v52
  main_v53

def fn_part2 {F : FTy → Type} [FloatOps F] (main_arg7 : FVec F S4096 .f32) (main_arg8 : FVec F S4096x51 .f32) (main_arg9 : FVec F S51 .f32) (main_arg10 : FVec F S22801x51 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x51 .f32 := Host.absf main_arg8
  let main_cst_14 : FVec F S_ .f32 := constant S_ .f32 0x7F800000#32
  let main_v40 : FVec F S4096x51 .f32 := broadcastInDim S4096x51 ![] bcast_S_S4096x51 main_cst_14
  let main_v41 : IVec S4096x51 1 := cmpf .olt main_v39 main_v40
  let main_c_15 : IVec S_ 1 := constantI S_ 1 1#1
  let main_v42 : IVec S_ 1 := (fun x v => Host.reduce IntOp.andi x v reducesTo_S4096x51_S_d0_1 h_S_) main_v41 main_c_15
  let main_v43 : IVec S_ 1 := andi main_v38 main_v42
  let main_v44 : FVec F S51 .f32 := Host.absf main_arg9
  let main_cst_16 : FVec F S_ .f32 := constant S_ .f32 0x7F800000#32
  let main_v45 : FVec F S51 .f32 := broadcastInDim S51 ![] bcast_S_S51 main_cst_16
  let main_v46 : IVec S51 1 := cmpf .olt main_v44 main_v45
  let main_c_17 : IVec S_ 1 := constantI S_ 1 1#1
  let main_v47 : IVec S_ 1 := (fun x v => Host.reduce IntOp.andi x v reducesTo_S51_S_d0 h_S_) main_v46 main_c_17
  let main_v48 : IVec S_ 1 := andi main_v43 main_v47
  let main_v49 : FVec F S22801x51 .f32 := Host.absf main_arg10
  let main_cst_18 : FVec F S_ .f32 := constant S_ .f32 0x7F800000#32
  let main_v50 : FVec F S22801x51 .f32 := broadcastInDim S22801x51 ![] bcast_S_S22801x51 main_cst_18
  fn_part3 (F := F) main_v48 main_v49 main_v50

def fn_part1 {F : FTy → Type} [FloatOps F] (main_arg4 : FVec F S1024x4096 .f32) (main_arg5 : FVec F S4096 .f32) (main_arg6 : FVec F S2048x4096 .f32) (main_arg7 : FVec F S4096 .f32) (main_arg8 : FVec F S4096x51 .f32) (main_arg9 : FVec F S51 .f32) (main_arg10 : FVec F S22801x51 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S6144x512 .f32) (main_arg1 : FVec F S49152x2048 .f32) (main_arg2 : FVec F S512x1024 .f32) (main_arg3 : FVec F S1024 .f32) (main_arg4 : FVec F S1024x4096 .f32) (main_arg5 : FVec F S4096 .f32) (main_arg6 : FVec F S2048x4096 .f32) (main_arg7 : FVec F S4096 .f32) (main_arg8 : FVec F S4096x51 .f32) (main_arg9 : FVec F S51 .f32) (main_arg10 : FVec F S22801x51 .f32) (main_arg11 : IVec S6144 32) (main_arg12 : IVec S49152x2 32) : IVec S_ 1 :=
  let main_v0 : FVec F S6144x512 .f32 := Host.absf main_arg0
  let main_cst : FVec F S_ .f32 := constant S_ .f32 0x7F800000#32
  let main_v1 : FVec F S6144x512 .f32 := broadcastInDim S6144x512 ![] bcast_S_S6144x512 main_cst
  let main_v2 : IVec S6144x512 1 := cmpf .olt main_v0 main_v1
  let main_c : IVec S_ 1 := constantI S_ 1 1#1
  let main_v3 : IVec S_ 1 := (fun x v => Host.reduce IntOp.andi x v reducesTo_S6144x512_S_d0_1 h_S_) main_v2 main_c
  let main_v4 : FVec F S49152x2048 .f32 := Host.absf main_arg1
  let main_cst_0 : FVec F S_ .f32 := constant S_ .f32 0x7F800000#32
  let main_v5 : FVec F S49152x2048 .f32 := broadcastInDim S49152x2048 ![] bcast_S_S49152x2048 main_cst_0
  let main_v6 : IVec S49152x2048 1 := cmpf .olt main_v4 main_v5
  let main_c_1 : IVec S_ 1 := constantI S_ 1 1#1
  let main_v7 : IVec S_ 1 := (fun x v => Host.reduce IntOp.andi x v reducesTo_S49152x2048_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S6144x512 : Shape := ⟨2, ![6144, 512]⟩
abbrev S49152x2048 : Shape := ⟨2, ![49152, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S4096x51 : Shape := ⟨2, ![4096, 51]⟩
abbrev S51 : Shape := ⟨1, ![51]⟩
abbrev S22801x51 : Shape := ⟨2, ![22801, 51]⟩
abbrev S6144 : Shape := ⟨1, ![6144]⟩
abbrev S49152x2 : Shape := ⟨2, ![49152, 2]⟩
abbrev S1x1024 : Shape := ⟨2, ![1, 1024]⟩
abbrev S6144x1024 : Shape := ⟨2, ![6144, 1024]⟩
abbrev S1024x512 : Shape := ⟨2, ![1024, 512]⟩
abbrev S1024x1024 : Shape := ⟨2, ![1024, 1024]⟩
abbrev S6144x2x512 : Shape := ⟨3, ![6144, 2, 512]⟩
abbrev S6144x1x512 : Shape := ⟨3, ![6144, 1, 512]⟩
abbrev S49152x1 : Shape := ⟨2, ![49152, 1]⟩
abbrev S49152 : Shape := ⟨1, ![49152]⟩
abbrev S_ : Shape := ⟨0, ![]⟩
abbrev S49152x512 : Shape := ⟨2, ![49152, 512]⟩
abbrev S49152x1024 : Shape := ⟨2, ![49152, 1024]⟩
abbrev S49152x51 : Shape := ⟨2, ![49152, 51]⟩
abbrev S1x4096 : Shape := ⟨2, ![1, 4096]⟩
abbrev S1x51 : Shape := ⟨2, ![1, 51]⟩
abbrev S128x1024 : Shape := ⟨2, ![128, 1024]⟩
abbrev S128x2048 : Shape := ⟨2, ![128, 2048]⟩
abbrev S128x51 : Shape := ⟨2, ![128, 51]⟩
abbrev S128x4096 : Shape := ⟨2, ![128, 4096]⟩

abbrev nBuf : Space → Nat
  | .hbm => 85
  | .vmem => 20
  | .smem => 0
  | _ => 0

abbrev bufTy : (tb : Table) → Fin (tcTables nBuf tb) → BufTy
  | .hbm, ⟨0, _⟩ => ⟨S6144x512, .f32⟩
  | .hbm, ⟨1, _⟩ => ⟨S49152x2048, .f32⟩
  | .hbm, ⟨2, _⟩ => ⟨S512x1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S2048x4096, .f32⟩
  | .hbm, ⟨7, _⟩ => ⟨S4096, .f32⟩
  | .hbm, ⟨8, _⟩ => ⟨S4096x51, .f32⟩
  | .hbm, ⟨9, _⟩ => ⟨S51, .f32⟩
  | .hbm, ⟨10, _⟩ => ⟨S22801x51, .f32⟩
  | .hbm, ⟨11, _⟩ => ⟨S6144, .i32⟩
  | .hbm, ⟨12, _⟩ => ⟨S49152x2, .i32⟩
  | .hbm, ⟨13, _⟩ => ⟨S6144x512, .bf16⟩
  | .hbm, ⟨14, _⟩ => ⟨S512x1024, .bf16⟩
  | .hbm, ⟨15, _⟩ => ⟨S1x1024, .f32⟩
  | .hbm, ⟨16, _⟩ => ⟨S6144x1024, .f32⟩
  | .hbm, ⟨17, _⟩ => ⟨S6144x2x512, .f32⟩
  | .hbm, ⟨18, _⟩ => ⟨S6144x1x512, .f32⟩
  | .hbm, ⟨19, _⟩ => ⟨S6144x512, .f32⟩
  | .hbm, ⟨20, _⟩ => ⟨S6144x1x512, .f32⟩
  | .hbm, ⟨21, _⟩ => ⟨S6144x512, .f32⟩
  | .hbm, ⟨22, _⟩ => ⟨S49152x1, .i32⟩
  | .hbm, ⟨23, _⟩ => ⟨S49152, .i32⟩
  | .hbm, ⟨24, _⟩ => ⟨S49152x1, .i32⟩
  | .hbm, ⟨25, _⟩ => ⟨S49152, .i32⟩
  | .hbm, ⟨26, _⟩ => ⟨S_, .i32⟩
  | .hbm, ⟨27, _⟩ => ⟨S49152, .i32⟩
  | .hbm, ⟨28, _⟩ => ⟨S49152, .i1⟩
  | .hbm, ⟨29, _⟩ => ⟨S_, .i32⟩
  | .hbm, ⟨30, _⟩ => ⟨S49152, .i32⟩
  | .hbm, ⟨31, _⟩ => ⟨S49152, .i32⟩
  | .hbm, ⟨32, _⟩ => ⟨S49152, .i32⟩
  | .hbm, ⟨33, _⟩ => ⟨S49152x1, .i32⟩
  | .hbm, ⟨34, _⟩ => ⟨S49152x512, .f32⟩
  | .hbm, ⟨35, _⟩ => ⟨S_, .i32⟩
  | .hbm, ⟨36, _⟩ => ⟨S49152, .i32⟩
  | .hbm, ⟨37, _⟩ => ⟨S49152, .i1⟩
  | .hbm, ⟨38, _⟩ => ⟨S_, .i32⟩
  | .hbm, ⟨39, _⟩ => ⟨S49152, .i32⟩
  | .hbm, ⟨40, _⟩ => ⟨S49152, .i32⟩
  | .hbm, ⟨41, _⟩ => ⟨S49152, .i32⟩
  | .hbm, ⟨42, _⟩ => ⟨S49152x1, .i32⟩
  | .hbm, ⟨43, _⟩ => ⟨S49152x512, .f32⟩
  | .hbm, ⟨44, _⟩ => ⟨S49152x1024, .f32⟩
  | .hbm, ⟨45, _⟩ => ⟨S_, .i32⟩
  | .hbm, ⟨46, _⟩ => ⟨S49152, .i32⟩
  | .hbm, ⟨47, _⟩ => ⟨S49152, .i1⟩
  | .hbm, ⟨48, _⟩ => ⟨S_, .i32⟩
  | .hbm, ⟨49, _⟩ => ⟨S49152, .i32⟩
  | .hbm, ⟨50, _⟩ => ⟨S49152, .i32⟩
  | .hbm, ⟨51, _⟩ => ⟨S49152, .i32⟩
  | .hbm, ⟨52, _⟩ => ⟨S49152x1, .i32⟩
  | .hbm, ⟨53, _⟩ => ⟨S49152, .i32⟩
  | .hbm, ⟨54, _⟩ => ⟨S_, .i32⟩
  | .hbm, ⟨55, _⟩ => ⟨S49152, .i32⟩
  | .hbm, ⟨56, _⟩ => ⟨S49152, .i32⟩
  | .hbm, ⟨57, _⟩ => ⟨S_, .i32⟩
  | .hbm, ⟨58, _⟩ => ⟨S49152, .i32⟩
  | .hbm, ⟨59, _⟩ => ⟨S49152, .i1⟩
  | .hbm, ⟨60, _⟩ => ⟨S_, .i32⟩
  | .hbm, ⟨61, _⟩ => ⟨S49152, .i32⟩
  | .hbm, ⟨62, _⟩ => ⟨S49152, .i32⟩
  | .hbm, ⟨63, _⟩ => ⟨S49152, .i32⟩
  | .hbm, ⟨64, _⟩ => ⟨S49152x1, .i32⟩
  | .hbm, ⟨65, _⟩ => ⟨S49152, .i32⟩
  | .hbm, ⟨66, _⟩ => ⟨S49152, .i32⟩
  | .hbm, ⟨67, _⟩ => ⟨S_, .i32⟩
  | .hbm, ⟨68, _⟩ => ⟨S49152, .i32⟩
  | .hbm, ⟨69, _⟩ => ⟨S49152, .i1⟩
  | .hbm, ⟨70, _⟩ => ⟨S_, .i32⟩
  | .hbm, ⟨71, _⟩ => ⟨S49152, .i32⟩
  | .hbm, ⟨72, _⟩ => ⟨S49152, .i32⟩
  | .hbm, ⟨73, _⟩ => ⟨S49152, .i32⟩
  | .hbm, ⟨74, _⟩ => ⟨S49152x1, .i32⟩
  | .hbm, ⟨75, _⟩ => ⟨S49152x51, .f32⟩
  | .hbm, ⟨76, _⟩ => ⟨S49152x1024, .bf16⟩
  | .hbm, ⟨77, _⟩ => ⟨S49152x2048, .bf16⟩
  | .hbm, ⟨78, _⟩ => ⟨S1024x4096, .bf16⟩
  | .hbm, ⟨79, _⟩ => ⟨S2048x4096, .bf16⟩
  | .hbm, ⟨80, _⟩ => ⟨S4096x51, .bf16⟩
  | .hbm, ⟨81, _⟩ => ⟨S1x4096, .f32⟩
  | .hbm, ⟨82, _⟩ => ⟨S1x4096, .f32⟩
  | .hbm, ⟨83, _⟩ => ⟨S1x51, .f32⟩
  | .hbm, ⟨84, _⟩ => ⟨S49152x51, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S128x1024, .bf16⟩
  | .local _ .vmem, ⟨7, _⟩ => ⟨S128x1024, .bf16⟩
  | .local _ .vmem, ⟨8, _⟩ => ⟨S128x2048, .bf16⟩
  | .local _ .vmem, ⟨9, _⟩ => ⟨S128x2048, .bf16⟩
  | .local _ .vmem, ⟨10, _⟩ => ⟨S128x51, .f32⟩
  | .local _ .vmem, ⟨11, _⟩ => ⟨S128x51, .f32⟩
  | .local _ .vmem, ⟨12, _⟩ => ⟨S1024x4096, .bf16⟩
  | .local _ .vmem, ⟨13, _⟩ => ⟨S1x4096, .f32⟩
  | .local _ .vmem, ⟨14, _⟩ => ⟨S2048x4096, .bf16⟩
  | .local _ .vmem, ⟨15, _⟩ => ⟨S1x4096, .f32⟩
  | .local _ .vmem, ⟨16, _⟩ => ⟨S4096x51, .bf16⟩
  | .local _ .vmem, ⟨17, _⟩ => ⟨S1x51, .f32⟩
  | .local _ .vmem, ⟨18, _⟩ => ⟨S128x51, .f32⟩
  | .local _ .vmem, ⟨19, _⟩ => ⟨S128x51, .f32⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![384], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x51 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x51 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x51 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x51 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S6144x1024_S6144x2x512 : S6144x1024.ShapeCasts S6144x2x512
  slices_S6144x2x512_S6144x1x512_0_0_0 : S6144x2x512.Slices ![0, 0, 0] S6144x1x512
  shapeCasts_S6144x1x512_S6144x512 : S6144x1x512.ShapeCasts S6144x512
  slices_S6144x2x512_S6144x1x512_0_1_0 : S6144x2x512.Slices ![0, 1, 0] S6144x1x512
  slices_S49152x2_S49152x1_0_0 : S49152x2.Slices ![0, 0] S49152x1
  shapeCasts_S49152x1_S49152 : S49152x1.ShapeCasts S49152
  slices_S49152x2_S49152x1_0_1 : S49152x2.Slices ![0, 1] S49152x1
  bcast_S_S49152 : S_.BroadcastsInDim S49152 (![] : Fin 0 → Fin S49152.rank)
  bcast_S49152_S49152x1_0 : S49152.BroadcastsInDim S49152x1 (![0] : Fin 1 → Fin S49152x1.rank)
  concatenates_S49152x512_S49152x512_S49152x1024_d1 : Shape.Concatenates [S49152x512, S49152x512] S49152x1024 1
  shapeCasts_S4096_S1x4096 : S4096.ShapeCasts S1x4096
  shapeCasts_S51_S1x51 : S51.ShapeCasts S1x51
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x51_S4096x51_0_0 : ∀ a, (![0, 0] : Fin 2 → Nat) a + S4096x51.size a ≤ S4096x51.size a
  h_S4096x51 : 0 < S4096x51.numel
  shapeCasts_S4096x51_S4096x51 : S4096x51.ShapeCasts S4096x51
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S1x51_S128x51 : S1x51.Broadcasts S128x51
  inb_S128x51_S128x51_0_0 : ∀ a, (![0, 0] : Fin 2 → Nat) a + S128x51.size a ≤ S128x51.size a
  h_S128x51 : 0 < S128x51.numel
  shapeCasts_S128x51_S128x51 : S128x51.ShapeCasts S128x51
  dot_S1024x512_S512x1024_S1024x1024_1_0_0_1_n_n_wf : DotDims.WF S1024x512 S512x1024 S1024x1024 [1] [0] [0] [1] [] []
  gather_S6144x512_S49152x1_S49152x512_1_0_n_n_0_1_1512_wf : GatherDims.WF S6144x512 S49152x1 S49152x512 [1] [0] [] [0] [] 1 ![1, 512]
  gather_S6144_S49152x1_S49152_n_0_n_n_0_1_1_wf : GatherDims.WF S6144 S49152x1 S49152 [] [0] [] [0] [] 1 ![1]
  gather_S22801x51_S49152x1_S49152x51_1_0_n_n_0_1_151_wf : GatherDims.WF S22801x51 S49152x1 S49152x51 [1] [0] [] [0] [] 1 ![1, 51]
  dot_S128x1024_S1024x4096_S128x4096_1_0_0_1_n_n_wf : DotDims.WF S128x1024 S1024x4096 S128x4096 [1] [0] [0] [1] [] []
  dot_S128x2048_S2048x4096_S128x4096_1_0_0_1_n_n_wf : DotDims.WF S128x2048 S2048x4096 S128x4096 [1] [0] [0] [1] [] []
  dot_S128x4096_S4096x51_S128x51_1_0_0_1_n_n_wf : DotDims.WF S128x4096 S4096x51 S128x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S6144x512.size a
  hwx0_0 : ∀ i : grid0.Coords, EltTy.bits .bf16 = 32 ∨ (Rect.block (s := S6144x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S6144x1024.size a
  hwx0_3 : ∀ i : grid0.Coords, EltTy.bits .f32 = 32 ∨ (Rect.block (s := S6144x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S49152x1024.size a
  hwx1_0 : ∀ i : grid1.Coords, EltTy.bits .bf16 = 32 ∨ (Rect.block (s := S49152x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S49152x2048.size a
  hwx1_1 : ∀ i : grid1.Coords, EltTy.bits .bf16 = 32 ∨ (Rect.block (s := S49152x2048) S128x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x51.size a ≤ S49152x51.size a
  hwx1_2 : ∀ i : grid1.Coords, EltTy.bits .f32 = 32 ∨ (Rect.block (s := S49152x51) S128x51.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x4096.size a ≤ S2048x4096.size a
  hwx1_5 : ∀ i : grid1.Coords, EltTy.bits .bf16 = 32 ∨ (Rect.block (s := S2048x4096) S2048x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x51.size a ≤ S4096x51.size a
  hwx1_7 : ∀ i : grid1.Coords, EltTy.bits .bf16 = 32 ∨ (Rect.block (s := S4096x51) S4096x51.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x51.size a ≤ S1x51.size a
  hwx1_8 : ∀ i : grid1.Coords, EltTy.bits .f32 = 32 ∨ (Rect.block (s := S1x51) S1x51.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x51.size a ≤ S49152x51.size a
  hwx1_9 : ∀ i : grid1.Coords, EltTy.bits .f32 = 32 ∨ (Rect.block (s := S49152x51) S128x51.size (cc1_transform_9 i) (hinb1_9 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S6144x512_S49152x1_S49152x512_1_0_n_n_0_1_1512 : GatherDims S6144x512 S49152x1 S49152x512 where
  offsetDims := [1]
  collapsedSliceDims := [0]
  operandBatchingDims := []
  startIndicesBatchingDims := []
  startIndexMap := [0]
  indexVectorDim := 1
  sliceSizes := ![1, 512]
  wf := gather_S6144x512_S49152x1_S49152x512_1_0_n_n_0_1_1512_wf
def gather_S6144_S49152x1_S49152_n_0_n_n_0_1_1 : GatherDims S6144 S49152x1 S49152 where
  offsetDims := []
  collapsedSliceDims := [0]
  operandBatchingDims := []
  startIndicesBatchingDims := []
  startIndexMap := [0]
  indexVectorDim := 1
  sliceSizes := ![1]
  wf := gather_S6144_S49152x1_S49152_n_0_n_n_0_1_1_wf
def gather_S22801x51_S49152x1_S49152x51_1_0_n_n_0_1_151 : GatherDims S22801x51 S49152x1 S49152x51 where
  offsetDims := [1]
  collapsedSliceDims := [0]
  operandBatchingDims := []
  startIndicesBatchingDims := []
  startIndexMap := [0]
  indexVectorDim := 1
  sliceSizes := ![1, 51]
  wf := gather_S22801x51_S49152x1_S49152x51_1_0_n_n_0_1_151_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x4096_S4096x51_S128x51_1_0_0_1_n_n : DotDims S128x4096 S4096x51 S128x51 where
  lhsContracting := [1]
  rhsContracting := [0]
  lhsNonContracting := [0]
  rhsNonContracting := [1]
  lhsBatch := []
  rhsBatch := []
  wf := dot_S128x4096_S4096x51_S128x51_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x51.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S2048x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S4096x51.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S1x51.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v60) S128x51.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S6144x512 : Shape := ⟨2, ![6144, 512]⟩
abbrev S49152x2048 : Shape := ⟨2, ![49152, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S4096x51 : Shape := ⟨2, ![4096, 51]⟩
abbrev S51 : Shape := ⟨1, ![51]⟩
abbrev S22801x51 : Shape := ⟨2, ![22801, 51]⟩
abbrev S6144 : Shape := ⟨1, ![6144]⟩
abbrev S49152x2 : Shape := ⟨2, ![49152, 2]⟩
abbrev S6144x1024 : Shape := ⟨2, ![6144, 1024]⟩
abbrev S1x1024 : Shape := ⟨2, ![1, 1024]⟩
abbrev S6144x2x512 : Shape := ⟨3, ![6144, 2, 512]⟩
abbrev S6144x1x512 : Shape := ⟨3, ![6144, 1, 512]⟩
abbrev S49152x1 : Shape := ⟨2, ![49152, 1]⟩
abbrev S49152 : Shape := ⟨1, ![49152]⟩
abbrev S_ : Shape := ⟨0, ![]⟩
abbrev S49152x512 : Shape := ⟨2, ![49152, 512]⟩
abbrev S49152x1024 : Shape := ⟨2, ![49152, 1024]⟩
abbrev S49152x4096 : Shape := ⟨2, ![49152, 4096]⟩
abbrev S1x4096 : Shape := ⟨2, ![1, 4096]⟩
abbrev S49152x51 : Shape := ⟨2, ![49152, 51]⟩
abbrev S1x51 : Shape := ⟨2, ![1, 51]⟩

abbrev nBuf : Space → Nat
  | .hbm => 94
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S49152x2048, .f32⟩
  | .hbm, ⟨2, _⟩ => ⟨S512x1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S2048x4096, .f32⟩
  | .hbm, ⟨7, _⟩ => ⟨S4096, .f32⟩
  | .hbm, ⟨8, _⟩ => ⟨S4096x51, .f32⟩
  | .hbm, ⟨9, _⟩ => ⟨S51, .f32⟩
  | .hbm, ⟨10, _⟩ => ⟨S22801x51, .f32⟩
  | .hbm, ⟨11, _⟩ => ⟨S6144, .i32⟩
  | .hbm, ⟨12, _⟩ => ⟨S49152x2, .i32⟩
  | .hbm, ⟨13, _⟩ => ⟨S6144x1024, .f32⟩
  | .hbm, ⟨14, _⟩ => ⟨S1x1024, .f32⟩
  | .hbm, ⟨15, _⟩ => ⟨S6144x1024, .f32⟩
  | .hbm, ⟨16, _⟩ => ⟨S6144x1024, .f32⟩
  | .hbm, ⟨17, _⟩ => ⟨S6144x2x512, .f32⟩
  | .hbm, ⟨18, _⟩ => ⟨S6144x1x512, .f32⟩
  | .hbm, ⟨19, _⟩ => ⟨S6144x512, .f32⟩
  | .hbm, ⟨20, _⟩ => ⟨S6144x1x512, .f32⟩
  | .hbm, ⟨21, _⟩ => ⟨S6144x512, .f32⟩
  | .hbm, ⟨22, _⟩ => ⟨S49152x1, .i32⟩
  | .hbm, ⟨23, _⟩ => ⟨S49152, .i32⟩
  | .hbm, ⟨24, _⟩ => ⟨S_, .i32⟩
  | .hbm, ⟨25, _⟩ => ⟨S49152, .i32⟩
  | .hbm, ⟨26, _⟩ => ⟨S49152, .i1⟩
  | .hbm, ⟨27, _⟩ => ⟨S_, .i32⟩
  | .hbm, ⟨28, _⟩ => ⟨S49152, .i32⟩
  | .hbm, ⟨29, _⟩ => ⟨S49152, .i32⟩
  | .hbm, ⟨30, _⟩ => ⟨S49152, .i32⟩
  | .hbm, ⟨31, _⟩ => ⟨S49152x1, .i32⟩
  | .hbm, ⟨32, _⟩ => ⟨S49152x512, .f32⟩
  | .hbm, ⟨33, _⟩ => ⟨S49152x1, .i32⟩
  | .hbm, ⟨34, _⟩ => ⟨S49152, .i32⟩
  | .hbm, ⟨35, _⟩ => ⟨S_, .i32⟩
  | .hbm, ⟨36, _⟩ => ⟨S49152, .i32⟩
  | .hbm, ⟨37, _⟩ => ⟨S49152, .i1⟩
  | .hbm, ⟨38, _⟩ => ⟨S_, .i32⟩
  | .hbm, ⟨39, _⟩ => ⟨S49152, .i32⟩
  | .hbm, ⟨40, _⟩ => ⟨S49152, .i32⟩
  | .hbm, ⟨41, _⟩ => ⟨S49152, .i32⟩
  | .hbm, ⟨42, _⟩ => ⟨S49152x1, .i32⟩
  | .hbm, ⟨43, _⟩ => ⟨S49152x512, .f32⟩
  | .hbm, ⟨44, _⟩ => ⟨S49152x1024, .f32⟩
  | .hbm, ⟨45, _⟩ => ⟨S49152x4096, .f32⟩
  | .hbm, ⟨46, _⟩ => ⟨S1x4096, .f32⟩
  | .hbm, ⟨47, _⟩ => ⟨S49152x4096, .f32⟩
  | .hbm, ⟨48, _⟩ => ⟨S49152x4096, .f32⟩
  | .hbm, ⟨49, _⟩ => ⟨S49152x4096, .f32⟩
  | .hbm, ⟨50, _⟩ => ⟨S1x4096, .f32⟩
  | .hbm, ⟨51, _⟩ => ⟨S49152x4096, .f32⟩
  | .hbm, ⟨52, _⟩ => ⟨S49152x4096, .f32⟩
  | .hbm, ⟨53, _⟩ => ⟨S49152x4096, .f32⟩
  | .hbm, ⟨54, _⟩ => ⟨S49152x51, .f32⟩
  | .hbm, ⟨55, _⟩ => ⟨S1x51, .f32⟩
  | .hbm, ⟨56, _⟩ => ⟨S49152x51, .f32⟩
  | .hbm, ⟨57, _⟩ => ⟨S49152x51, .f32⟩
  | .hbm, ⟨58, _⟩ => ⟨S49152x1, .i32⟩
  | .hbm, ⟨59, _⟩ => ⟨S49152, .i32⟩
  | .hbm, ⟨60, _⟩ => ⟨S_, .i32⟩
  | .hbm, ⟨61, _⟩ => ⟨S49152, .i32⟩
  | .hbm, ⟨62, _⟩ => ⟨S49152, .i1⟩
  | .hbm, ⟨63, _⟩ => ⟨S_, .i32⟩
  | .hbm, ⟨64, _⟩ => ⟨S49152, .i32⟩
  | .hbm, ⟨65, _⟩ => ⟨S49152, .i32⟩
  | .hbm, ⟨66, _⟩ => ⟨S49152, .i32⟩
  | .hbm, ⟨67, _⟩ => ⟨S49152x1, .i32⟩
  | .hbm, ⟨68, _⟩ => ⟨S49152, .i32⟩
  | .hbm, ⟨69, _⟩ => ⟨S_, .i32⟩
  | .hbm, ⟨70, _⟩ => ⟨S49152, .i32⟩
  | .hbm, ⟨71, _⟩ => ⟨S49152, .i32⟩
  | .hbm, ⟨72, _⟩ => ⟨S49152x1, .i32⟩
  | .hbm, ⟨73, _⟩ => ⟨S49152, .i32⟩
  | .hbm, ⟨74, _⟩ => ⟨S_, .i32⟩
  | .hbm, ⟨75, _⟩ => ⟨S49152, .i32⟩
  | .hbm, ⟨76, _⟩ => ⟨S49152, .i1⟩
  | .hbm, ⟨77, _⟩ => ⟨S_, .i32⟩
  | .hbm, ⟨78, _⟩ => ⟨S49152, .i32⟩
  | .hbm, ⟨79, _⟩ => ⟨S49152, .i32⟩
  | .hbm, ⟨80, _⟩ => ⟨S49152, .i32⟩
  | .hbm, ⟨81, _⟩ => ⟨S49152x1, .i32⟩
  | .hbm, ⟨82, _⟩ => ⟨S49152, .i32⟩
  | .hbm, ⟨83, _⟩ => ⟨S49152, .i32⟩
  | .hbm, ⟨84, _⟩ => ⟨S_, .i32⟩
  | .hbm, ⟨85, _⟩ => ⟨S49152, .i32⟩
  | .hbm, ⟨86, _⟩ => ⟨S49152, .i1⟩
  | .hbm, ⟨87, _⟩ => ⟨S_, .i32⟩
  | .hbm, ⟨88, _⟩ => ⟨S49152, .i32⟩
  | .hbm, ⟨89, _⟩ => ⟨S49152, .i32⟩
  | .hbm, ⟨90, _⟩ => ⟨S49152, .i32⟩
  | .hbm, ⟨91, _⟩ => ⟨S49152x1, .i32⟩
  | .hbm, ⟨92, _⟩ => ⟨S49152x51, .f32⟩
  | .hbm, ⟨93, _⟩ => ⟨S49152x51, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_3 : Ref sig .tc := ⟨.hbm, 60, rfl⟩
abbrev main_v43 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_6 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_8 : Ref sig .tc := ⟨.hbm, 84, rfl⟩
abbrev main_v62 : Ref sig .tc := ⟨.hbm, 85, rfl⟩
abbrev main_v63 : Ref sig .tc := ⟨.hbm, 86, rfl⟩
abbrev main_c_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S6144x1024_0_1 : S1x1024.BroadcastsInDim S6144x1024 (![0, 1] : Fin 2 → Fin S6144x1024.rank)
  shapeCasts_S6144x1024_S6144x2x512 : S6144x1024.ShapeCasts S6144x2x512
  slices_S6144x2x512_S6144x1x512_0_0_0 : S6144x2x512.Slices ![0, 0, 0] S6144x1x512
  shapeCasts_S6144x1x512_S6144x512 : S6144x1x512.ShapeCasts S6144x512
  slices_S6144x2x512_S6144x1x512_0_1_0 : S6144x2x512.Slices ![0, 1, 0] S6144x1x512
  slices_S49152x2_S49152x1_0_0 : S49152x2.Slices ![0, 0] S49152x1
  shapeCasts_S49152x1_S49152 : S49152x1.ShapeCasts S49152
  bcast_S_S49152 : S_.BroadcastsInDim S49152 (![] : Fin 0 → Fin S49152.rank)
  bcast_S49152_S49152x1_0 : S49152.BroadcastsInDim S49152x1 (![0] : Fin 1 → Fin S49152x1.rank)
  slices_S49152x2_S49152x1_0_1 : S49152x2.Slices ![0, 1] S49152x1
  concatenates_S49152x512_S49152x512_S49152x1024_d1 : Shape.Concatenates [S49152x512, S49152x512] S49152x1024 1
  bcast_S4096_S1x4096_1 : S4096.BroadcastsInDim S1x4096 (![1] : Fin 1 → Fin S1x4096.rank)
  bcast_S1x4096_S49152x4096_0_1 : S1x4096.BroadcastsInDim S49152x4096 (![0, 1] : Fin 2 → Fin S49152x4096.rank)
  bcast_S51_S1x51_1 : S51.BroadcastsInDim S1x51 (![1] : Fin 1 → Fin S1x51.rank)
  bcast_S1x51_S49152x51_0_1 : S1x51.BroadcastsInDim S49152x51 (![0, 1] : Fin 2 → Fin S49152x51.rank)
  dot_S6144x512_S512x1024_S6144x1024_1_0_0_1_n_n_wf : DotDims.WF S6144x512 S512x1024 S6144x1024 [1] [0] [0] [1] [] []
  gather_S6144x512_S49152x1_S49152x512_1_0_n_n_0_1_1512_wf : GatherDims.WF S6144x512 S49152x1 S49152x512 [1] [0] [] [0] [] 1 ![1, 512]
  dot_S49152x1024_S1024x4096_S49152x4096_1_0_0_1_n_n_wf : DotDims.WF S49152x1024 S1024x4096 S49152x4096 [1] [0] [0] [1] [] []
  dot_S49152x2048_S2048x4096_S49152x4096_1_0_0_1_n_n_wf : DotDims.WF S49152x2048 S2048x4096 S49152x4096 [1] [0] [0] [1] [] []
  dot_S49152x4096_S4096x51_S49152x51_1_0_0_1_n_n_wf : DotDims.WF S49152x4096 S4096x51 S49152x51 [1] [0] [0] [1] [] []
  gather_S6144_S49152x1_S49152_n_0_n_n_0_1_1_wf : GatherDims.WF S6144 S49152x1 S49152 [] [0] [] [0] [] 1 ![1]
  gather_S22801x51_S49152x1_S49152x51_1_0_n_n_0_1_151_wf : GatherDims.WF S22801x51 S49152x1 S49152x51 [1] [0] [] [0] [] 1 ![1, 51]

variable [Facts₀]

def dot_S6144x512_S512x1024_S6144x1024_1_0_0_1_n_n : DotDims S6144x512 S512x1024 S6144x1024 where
  lhsContracting := [1]
  rhsContracting := [0]
  lhsNonContracting := [0]
  rhsNonContracting := [1]
  lhsBatch := []
  rhsBatch := []
  wf := dot_S6144x512_S512x1024_S6144x1024_1_0_0_1_n_n_wf
def gather_S6144x512_S49152x1_S49152x512_1_0_n_n_0_1_1512 : GatherDims S6144x512 S49152x1 S49152x512 where
  offsetDims := [1]
  collapsedSliceDims := [0]
  operandBatchingDims := []
  startIndicesBatchingDims := []
  startIndexMap := [0]
  indexVectorDim := 1
  sliceSizes := ![1, 512]
  wf := gather_S6144x512_S49152x1_S49152x512_1_0_n_n_0_1_1512_wf
def dot_S49152x1024_S1024x4096_S49152x4096_1_0_0_1_n_n : DotDims S49152x1024 S1024x4096 S49152x4096 where
  lhsContracting := [1]
  rhsContracting := [0]
  lhsNonContracting := [0]
  rhsNonContracting := [1]
  lhsBatch := []
  rhsBatch := []
  wf := dot_S49152x1024_S1024x4096_S49152x4096_1_0_0_1_n_n_wf
def dot_S49152x2048_S2048x4096_S49152x4096_1_0_0_1_n_n : DotDims S49152x2048 S2048x4096 S49152x4096 where
  lhsContracting := [1]
  rhsContracting := [0]
  lhsNonContracting := [0]
  rhsNonContracting := [1]
  lhsBatch := []
  rhsBatch := []
  wf := dot_S49152x2048_S2048x4096_S49152x4096_1_0_0_1_n_n_wf
def dot_S49152x4096_S4096x51_S49152x51_1_0_0_1_n_n : DotDims S49152x4096 S4096x51 S49152x51 where
  lhsContracting := [1]
  rhsContracting := [0]
  lhsNonContracting := [0]
  rhsNonContracting := [1]
  lhsBatch := []
  rhsBatch := []
  wf := dot_S49152x4096_S4096x51_S49152x51_1_0_0_1_n_n_wf
def gather_S6144_S49152x1_S49152_n_0_n_n_0_1_1 : GatherDims S6144 S49152x1 S49152 where
  offsetDims := []
  collapsedSliceDims := [0]
  operandBatchingDims := []
  startIndicesBatchingDims := []
  startIndexMap := [0]
  indexVectorDim := 1
  sliceSizes := ![1]
  wf := gather_S6144_S49152x1_S49152_n_0_n_n_0_1_1_wf
def gather_S22801x51_S49152x1_S49152x51_1_0_n_n_0_1_151 : GatherDims S22801x51 S49152x1 S49152x51 where
  offsetDims := [1]
  collapsedSliceDims := [0]
  operandBatchingDims := []
  startIndicesBatchingDims := []
  startIndexMap := [0]
  indexVectorDim := 1
  sliceSizes := ![1, 51]
  wf := gather_S22801x51_S49152x1_S49152x51_1_0_n_n_0_1_151_wf

class Facts : Prop extends Facts₀ where

variable [Facts]
-- ==== Proof.HostChain.lean ====
/-
  The host glue both programs share: from the table of object representations and the table of (head, tail) pairs,
  the matrix of pair representations; and from the class table and the frequency table, the matrix of per-pair
  bias rows. Each is a composition of slices, reshapes, an index wrap-around (a negative index counts from the end)
  and row gathers. The two programs spell these with records and side conditions of their own; written out once
  for each program's vocabulary, the two spellings are one function (`pairRows_eq`, `freqRows_eq`): the same
  operations on the same shapes, so the comparison needs nothing about what a gather or a slice computes.
-/
import proofs.«167476_j16269336118078_1_alg».proof.Proof.Gen.KernelIdeal
import proofs.«167476_j16269336118078_1_alg».proof.Proof.Gen.ReferenceIdeal

noncomputable section

open Idealize.ShloMosaic

namespace Cert.HostChain.K

section
open Cert.KernelIdeal Cert.KernelIdeal.Facts₀

variable {F : FTy → Type} [FloatOps F]

/-- Column `0` of the pair table as a vector: the head object of each pair. -/
def headCol (pair : (⟨S49152x2, .i32⟩ : BufTy).Contents (Elt F)) : (⟨S49152, .i32⟩ : BufTy).Contents (Elt F) :=
  shapeCast _ (extractStridedSlice S49152x1 ![0, 0] pair slices_S49152x2_S49152x1_0_0) shapeCasts_S49152x1_S49152

/-- Column `1` of the pair table as a vector: the tail object of each pair. -/
def tailCol (pair : (⟨S49152x2, .i32⟩ : BufTy).Contents (Elt F)) : (⟨S49152, .i32⟩ : BufTy).Contents (Elt F) :=
  shapeCast _ (extractStridedSlice S49152x1 ![0, 1] pair slices_S49152x2_S49152x1_0_1) shapeCasts_S49152x1_S49152

/-- An index vector with its negative entries counted from the end of an axis of `n` entries, as a column of
    start indices for a gather. -/
def wrapCol (n : BitVec 32) (idx : (⟨S49152, .i32⟩ : BufTy).Contents (Elt F)) : (⟨S49152x1, .i32⟩ : BufTy).Contents (Elt F) :=
  broadcastInDim S49152x1 ![0] bcast_S49152_S49152x1_0
    (select (cmpi .slt idx (broadcastInDim S49152 ![] bcast_S_S49152 (constantI S_ 32 0#32)))
      (addi idx (broadcastInDim S49152 ![] bcast_S_S49152 (constantI S_ 32 n))) idx)

/-- Half `h` (`0` the head half, `1` the tail half) of every object's representation: the `[6144, 1024]` table
    seen as `[6144, 2, 512]` and cut at `h` on the middle axis. -/
def headHalf (e : (⟨S6144x1024, .f32⟩ : BufTy).Contents (Elt F)) : (⟨S6144x512, .f32⟩ : BufTy).Contents (Elt F) :=
  shapeCast _ (extractStridedSlice S6144x1x512 ![0, 0, 0] (shapeCast _ e shapeCasts_S6144x1024_S6144x2x512)
    slices_S6144x2x512_S6144x1x512_0_0_0) shapeCasts_S6144x1x512_S6144x512

def tailHalf (e : (⟨S6144x1024, .f32⟩ : BufTy).Contents (Elt F)) : (⟨S6144x512, .f32⟩ : BufTy).Contents (Elt F) :=
  shapeCast _ (extractStridedSlice S6144x1x512 ![0, 1, 0] (shapeCast _ e shapeCasts_S6144x1024_S6144x2x512)
    slices_S6144x2x512_S6144x1x512_0_1_0) shapeCasts_S6144x1x512_S6144x512

/-- A pair's representation: the head half of its head object's row beside the tail half of its tail object's row. -/
def pairRows (e : (⟨S6144x1024, .f32⟩ : BufTy).Contents (Elt F)) (pair : (⟨S49152x2, .i32⟩ : BufTy).Contents (Elt F)) :
    (⟨S49152x1024, .f32⟩ : BufTy).Contents (Elt F) :=
  concatenate S49152x1024 1
    [⟨S49152x512, Host.gather gather_S6144x512_S49152x1_S49152x512_1_0_n_n_0_1_1512 (headHalf e) (wrapCol 6144#32 (headCol pair))⟩,
     ⟨S49152x512, Host.gather gather_S6144x512_S49152x1_S49152x512_1_0_n_n_0_1_1512 (tailHalf e) (wrapCol 6144#32 (tailCol pair))⟩]
    concatenates_S49152x512_S49152x512_S49152x1024_d1

/-- The class of an object of each pair: the class table read at the (wrapped) object index. -/
def classOf (obj : (⟨S6144, .i32⟩ : BufTy).Contents (Elt F)) (idx : (⟨S49152, .i32⟩ : BufTy).Contents (Elt F)) :
    (⟨S49152, .i32⟩ : BufTy).Contents (Elt F) :=
  Host.gather gather_S6144_S49152x1_S49152_n_0_n_n_0_1_1 obj (wrapCol 6144#32 idx)

/-- A pair's row of the frequency table: row `151 · class(head) + class(tail)`, wrapped. -/
def freqRows (table : (⟨S22801x51, .f32⟩ : BufTy).Contents (Elt F)) (obj : (⟨S6144, .i32⟩ : BufTy).Contents (Elt F))
    (pair : (⟨S49152x2, .i32⟩ : BufTy).Contents (Elt F)) : (⟨S49152x51, .f32⟩ : BufTy).Contents (Elt F) :=
  Host.gather gather_S22801x51_S49152x1_S49152x51_1_0_n_n_0_1_151 table
    (wrapCol (F := F) 22801#32
      (addi (muli (classOf (F := F) obj (headCol pair)) (broadcastInDim S49152 ![] bcast_S_S49152 (constantI S_ 32 151#32)))
        (classOf (F := F) obj (tailCol pair))))

end

end Cert.HostChain.K

namespace Cert.HostChain.R

section
open Cert.ReferenceIdeal Cert.ReferenceIdeal.Facts₀

variable {F : FTy → Type} [FloatOps F]

/-- Column `0` of the pair table as a vector: the head object of each pair. -/
def headCol (pair : (⟨S49152x2, .i32⟩ : BufTy).Contents (Elt F)) : (⟨S49152, .i32⟩ : BufTy).Contents (Elt F) :=
  shapeCast _ (extractStridedSlice S49152x1 ![0, 0] pair slices_S49152x2_S49152x1_0_0) shapeCasts_S49152x1_S49152

/-- Column `1` of the pair table as a vector: the tail object of each pair. -/
def tailCol (pair : (⟨S49152x2, .i32⟩ : BufTy).Contents (Elt F)) : (⟨S49152, .i32⟩ : BufTy).Contents (Elt F) :=
  shapeCast _ (extractStridedSlice S49152x1 ![0, 1] pair slices_S49152x2_S49152x1_0_1) shapeCasts_S49152x1_S49152

/-- An index vector with its negative entries counted from the end of an axis of `n` entries, as a column of
    start indices for a gather. -/
def wrapCol (n : BitVec 32) (idx : (⟨S49152, .i32⟩ : BufTy).Contents (Elt F)) : (⟨S49152x1, .i32⟩ : BufTy).Contents (Elt F) :=
  broadcastInDim S49152x1 ![0] bcast_S49152_S49152x1_0
    (select (cmpi .slt idx (broadcastInDim S49152 ![] bcast_S_S49152 (constantI S_ 32 0#32)))
      (addi idx (broadcastInDim S49152 ![] bcast_S_S49152 (constantI S_ 32 n))) idx)

/-- Half `h` (`0` the head half, `1` the tail half) of every object's representation: the `[6144, 1024]` table
    seen as `[6144, 2, 512]` and cut at `h` on the middle axis. -/
def headHalf (e : (⟨S6144x1024, .f32⟩ : BufTy).Contents (Elt F)) : (⟨S6144x512, .f32⟩ : BufTy).Contents (Elt F) :=
  shapeCast _ (extractStridedSlice S6144x1x512 ![0, 0, 0] (shapeCast _ e shapeCasts_S6144x1024_S6144x2x512)
    slices_S6144x2x512_S6144x1x512_0_0_0) shapeCasts_S6144x1x512_S6144x512

def tailHalf (e : (⟨S6144x1024, .f32⟩ : BufTy).Contents (Elt F)) : (⟨S6144x512, .f32⟩ : BufTy).Contents (Elt F) :=
  shapeCast _ (extractStridedSlice S6144x1x512 ![0, 1, 0] (shapeCast _ e shapeCasts_S6144x1024_S6144x2x512)
    slices_S6144x2x512_S6144x1x512_0_1_0) shapeCasts_S6144x1x512_S6144x512

/-- A pair's representation: the head half of its head object's row beside the tail half of its tail object's row. -/
def pairRows (e : (⟨S6144x1024, .f32⟩ : BufTy).Contents (Elt F)) (pair : (⟨S49152x2, .i32⟩ : BufTy).Contents (Elt F)) :
    (⟨S49152x1024, .f32⟩ : BufTy).Contents (Elt F) :=
  concatenate S49152x1024 1
    [⟨S49152x512, Host.gather gather_S6144x512_S49152x1_S49152x512_1_0_n_n_0_1_1512 (headHalf e) (wrapCol 6144#32 (headCol pair))⟩,
     ⟨S49152x512, Host.gather gather_S6144x512_S49152x1_S49152x512_1_0_n_n_0_1_1512 (tailHalf e) (wrapCol 6144#32 (tailCol pair))⟩]
    concatenates_S49152x512_S49152x512_S49152x1024_d1

/-- The class of an object of each pair: the class table read at the (wrapped) object index. -/
def classOf (obj : (⟨S6144, .i32⟩ : BufTy).Contents (Elt F)) (idx : (⟨S49152, .i32⟩ : BufTy).Contents (Elt F)) :
    (⟨S49152, .i32⟩ : BufTy).Contents (Elt F) :=
  Host.gather gather_S6144_S49152x1_S49152_n_0_n_n_0_1_1 obj (wrapCol 6144#32 idx)

/-- A pair's row of the frequency table: row `151 · class(head) + class(tail)`, wrapped. -/
def freqRows (table : (⟨S22801x51, .f32⟩ : BufTy).Contents (Elt F)) (obj : (⟨S6144, .i32⟩ : BufTy).Contents (Elt F))
    (pair : (⟨S49152x2, .i32⟩ : BufTy).Contents (Elt F)) : (⟨S49152x51, .f32⟩ : BufTy).Contents (Elt F) :=
  Host.gather gather_S22801x51_S49152x1_S49152x51_1_0_n_n_0_1_151 table
    (wrapCol (F := F) 22801#32
      (addi (muli (classOf (F := F) obj (headCol pair)) (broadcastInDim S49152 ![] bcast_S_S49152 (constantI S_ 32 151#32)))
        (classOf (F := F) obj (tailCol pair))))

end

end Cert.HostChain.R

namespace Cert.HostChain

variable {F : FTy → Type} [FloatOps F]

/-- The two programs' spellings of the pair representations are one function. -/
theorem pairRows_eq : (K.pairRows (F := F)) = R.pairRows (F := F) := rfl

/-- The two programs' spellings of the per-pair bias rows are one function. -/
theorem freqRows_eq : (K.freqRows (F := F)) = R.freqRows (F := F) := rfl

end Cert.HostChain

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«167476_j16269336118078_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«167476_j16269336118078_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«167476_j16269336118078_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.RelHead.lean ====
/-
  The relation head of a scene-graph model, as plain functions of matrices of extended reals.

  For `a` candidate pairs, a pair's representation `x` (a row of `K` numbers) and its union feature `u` (a row of
  `U` numbers) are each sent through a dense layer with a bias into `P` channels; the two results are multiplied
  channel by channel (`gate`); the product goes through a third dense layer with a bias into `R` relation classes, and
  a per-pair bias row `fq` is added (`relHead`). Everything is stated entry by entry, so it reads the same on a block
  of rows and on the whole matrix: entry `(r, j)` depends on `x`, `u` and `fq` only through their row `r`
  (`gate_congr`, `relHead_congr`).

  Then the two ways a program spells the head, read at an index at the ideal values: a vector program multiplies into
  zero accumulators, lays each bias — held as a one-row matrix — over the rows by a broadcast, and narrows the gated
  product before the last product (`vector_relHead_apply`); a host program uses `dot_general` and lays each bias
  vector out by two `broadcast_in_dim`s (`host_relHead_apply`). At the ideal values a change of float format is the
  identity, so both are `relHead`.

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«167476_j16269336118078_1_alg».proof.Proof.LibBiasLayer

noncomputable section

namespace Cert.RelHead

open Idealize.ShloMosaic Idealize.ShloMosaic.ValueIdx Cert.DenseLayer Cert.BiasLayer

variable {a a' K U P R : ℕ}

/-! ## The head -/

/-- A one-row matrix `[1, n]` read as the vector of its row. -/
def rowOf {n : ℕ} (v : Mat 1 n) : Row n := fun i => v (ix2 (0 : Fin 1) (i 0))

theorem rowOf_apply {n : ℕ} (v : Mat 1 n) (q : Fin n) : rowOf v (ix1 q) = v (ix2 (0 : Fin 1) q) := rfl

/-- The row of a vector reshaped into a one-row matrix is the vector. -/
theorem rowOf_reshape {n : ℕ} (v : Row n) (h : (⟨1, ![n]⟩ : Shape).ShapeCasts ⟨2, ![1, n]⟩) :
    rowOf (shapeCast ⟨2, ![1, n]⟩ v h) = v :=
  funext fun i => by
    obtain ⟨q, rfl⟩ : ∃ q : Fin n, i = ix1 q := ⟨i 0, eq_ix1 i⟩
    exact (rowOf_apply _ q).trans (shapeCast_n_1n_apply v h 0 q)

/-- The two dense layers multiplied channel by channel: at `(r, k)` it is `(x·wc + bc)(r, k) · (u·wu + bu)(r, k)`. -/
def gate (x : Mat a K) (wc : Mat K P) (bc : Row P) (u : Mat a U) (wu : Mat U P) (bu : Row P) : Mat a P :=
  fun i => affine x wc bc i * affine u wu bu i

/-- The head: the gated product through the last dense layer, plus the per-pair bias. -/
def relHead (x : Mat a K) (wc : Mat K P) (bc : Row P) (u : Mat a U) (wu : Mat U P) (bu : Row P)
    (wr : Mat P R) (br : Row R) (fq : Mat a R) : Mat a R :=
  fun i => affine (gate x wc bc u wu bu) wr br i + fq i

theorem gate_apply (x : Mat a K) (wc : Mat K P) (bc : Row P) (u : Mat a U) (wu : Mat U P) (bu : Row P)
    (r : Fin a) (k : Fin P) :
    gate x wc bc u wu bu (ix2 r k) = affine x wc bc (ix2 r k) * affine u wu bu (ix2 r k) := rfl

theorem relHead_apply (x : Mat a K) (wc : Mat K P) (bc : Row P) (u : Mat a U) (wu : Mat U P) (bu : Row P)
    (wr : Mat P R) (br : Row R) (fq : Mat a R) (r : Fin a) (j : Fin R) :
    relHead x wc bc u wu bu wr br fq (ix2 r j)
      = affine (gate x wc bc u wu bu) wr br (ix2 r j) + fq (ix2 r j) := rfl

/-- An entry of the gated product depends on `x` and `u` only through the entry's row. -/
theorem gate_congr (x : Mat a K) (x' : Mat a' K) (wc : Mat K P) (bc : Row P) (u : Mat a U) (u' : Mat a' U)
    (wu : Mat U P) (bu : Row P) (r : Fin a) (r' : Fin a')
    (hx : ∀ k, x (ix2 r k) = x' (ix2 r' k)) (hu : ∀ k, u (ix2 r k) = u' (ix2 r' k)) (k : Fin P) :
    gate x wc bc u wu bu (ix2 r k) = gate x' wc bc u' wu bu (ix2 r' k) := by
  rw [gate_apply, gate_apply, affine_congr x x' wc bc r r' hx k, affine_congr u u' wu bu r r' hu k]

/-- An entry of the head depends on `x`, `u` and `fq` only through the entry's row. -/
theorem relHead_congr (x : Mat a K) (x' : Mat a' K) (wc : Mat K P) (bc : Row P) (u : Mat a U) (u' : Mat a' U)
    (wu : Mat U P) (bu : Row P) (wr : Mat P R) (br : Row R) (fq : Mat a R) (fq' : Mat a' R) (r : Fin a) (r' : Fin a')
    (hx : ∀ k, x (ix2 r k) = x' (ix2 r' k)) (hu : ∀ k, u (ix2 r k) = u' (ix2 r' k))
    (j : Fin R) (hf : fq (ix2 r j) = fq' (ix2 r' j)) :
    relHead x wc bc u wu bu wr br fq (ix2 r j) = relHead x' wc bc u' wu bu wr br fq' (ix2 r' j) := by
  rw [relHead_apply, relHead_apply, hf,
    affine_congr (gate x wc bc u wu bu) (gate x' wc bc u' wu bu) wr br r r'
      (fun k => gate_congr x x' wc bc u u' wu bu r r' hx hu k) j]

/-! ## A vector program's spelling -/

section Vector

variable {φx φu φc φw φr : FTy}

/-- A product into the zero accumulator plus a one-row bias broadcast over the rows is the dense layer with that
    row as its bias, entry by entry. -/
theorem vector_affineRow_apply {N : ℕ} {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (b : FVec Ideal ⟨2, ![1, N]⟩ .f32) (hb : (⟨2, ![1, N]⟩ : Shape).Broadcasts ⟨2, ![a, N]⟩) (r : Fin a) (q : Fin N) :
    addf (matmul d prec x w (constant ⟨2, ![a, N]⟩ .f32 0x00000000#32)) (broadcastTo ⟨2, ![a, N]⟩ b hb) (ix2 r q)
      = affine x w (rowOf b) (ix2 r q) := by
  show FloatOps.matmul d prec x w (constant ⟨2, ![a, N]⟩ .f32 0x00000000#32) (ix2 r q)
      + broadcastTo ⟨2, ![a, N]⟩ b hb (ix2 r q) = _
  rw [matmul_zero_apply hd, broadcastTo_1b_ab_apply]
  rfl

/-- The whole head as a vector program computes it on a block of rows: the two biased products multiplied, narrowed
    to the format `ψ` of the last product's left operand, multiplied into a zero accumulator, the last bias and the
    per-pair bias added. -/
theorem vector_relHead_apply
    {d1 : DotDims ⟨2, ![a, K]⟩ ⟨2, ![K, P]⟩ ⟨2, ![a, P]⟩} {d2 : DotDims ⟨2, ![a, U]⟩ ⟨2, ![U, P]⟩ ⟨2, ![a, P]⟩}
    {d3 : DotDims ⟨2, ![a, P]⟩ ⟨2, ![P, R]⟩ ⟨2, ![a, R]⟩} (hd1 : PlainDot d1) (hd2 : PlainDot d2) (hd3 : PlainDot d3)
    (x : FVec Ideal ⟨2, ![a, K]⟩ φx) (wc : FVec Ideal ⟨2, ![K, P]⟩ φc) (bc : FVec Ideal ⟨2, ![1, P]⟩ .f32)
    (u : FVec Ideal ⟨2, ![a, U]⟩ φu) (wu : FVec Ideal ⟨2, ![U, P]⟩ φw) (bu : FVec Ideal ⟨2, ![1, P]⟩ .f32)
    (wr : FVec Ideal ⟨2, ![P, R]⟩ φr) (br : FVec Ideal ⟨2, ![1, R]⟩ .f32) (fq : FVec Ideal ⟨2, ![a, R]⟩ .f32)
    (hP : (⟨2, ![1, P]⟩ : Shape).Broadcasts ⟨2, ![a, P]⟩) (hR : (⟨2, ![1, R]⟩ : Shape).Broadcasts ⟨2, ![a, R]⟩)
    (ψ : FTy) (hψ : ψ.bits < FTy.f32.bits) (r : Fin a) (j : Fin R) :
    addf (addf (matmul d3 none
          (truncf ψ (mulf (addf (matmul d1 none x wc (constant ⟨2, ![a, P]⟩ .f32 0x00000000#32)) (broadcastTo ⟨2, ![a, P]⟩ bc hP))
                         (addf (matmul d2 none u wu (constant ⟨2, ![a, P]⟩ .f32 0x00000000#32)) (broadcastTo ⟨2, ![a, P]⟩ bu hP))) hψ)
          wr (constant ⟨2, ![a, R]⟩ .f32 0x00000000#32)) (broadcastTo ⟨2, ![a, R]⟩ br hR)) fq (ix2 r j)
      = relHead x wc (rowOf bc) u wu (rowOf bu) wr (rowOf br) fq (ix2 r j) := by
  rw [relHead_apply]
  refine congrArg (· + fq (ix2 r j)) ?_
  refine (vector_affineRow_apply hd3 none _ wr br hR r j).trans ?_
  rw [affine_apply, affine_apply]
  refine congrArg (· + rowOf br (ix1 j)) ?_
  refine congrFun (prodRow_congr _ (gate x wc (rowOf bc) u wu (rowOf bu)) wr r r fun k => ?_) j
  rw [gate_apply, ← vector_affineRow_apply hd1 none x wc bc hP r k, ← vector_affineRow_apply hd2 none u wu bu hP r k]
  rfl

end Vector

/-! ## A host program's spelling -/

section Host

variable {φx φu φc φw φr : FTy}

/-- The whole head as a host program computes it on all rows at once. -/
theorem host_relHead_apply
    {d1 : DotDims ⟨2, ![a, K]⟩ ⟨2, ![K, P]⟩ ⟨2, ![a, P]⟩} {d2 : DotDims ⟨2, ![a, U]⟩ ⟨2, ![U, P]⟩ ⟨2, ![a, P]⟩}
    {d3 : DotDims ⟨2, ![a, P]⟩ ⟨2, ![P, R]⟩ ⟨2, ![a, R]⟩} (hd1 : PlainDot d1) (hd2 : PlainDot d2) (hd3 : PlainDot d3)
    (x : FVec Ideal ⟨2, ![a, K]⟩ φx) (wc : FVec Ideal ⟨2, ![K, P]⟩ φc) (bc : FVec Ideal ⟨1, ![P]⟩ .f32)
    (u : FVec Ideal ⟨2, ![a, U]⟩ φu) (wu : FVec Ideal ⟨2, ![U, P]⟩ φw) (bu : FVec Ideal ⟨1, ![P]⟩ .f32)
    (wr : FVec Ideal ⟨2, ![P, R]⟩ .f32) (br : FVec Ideal ⟨1, ![R]⟩ .f32) (fq : FVec Ideal ⟨2, ![a, R]⟩ .f32)
    (h1P : (⟨1, ![P]⟩ : Shape).BroadcastsInDim ⟨2, ![1, P]⟩ ![1])
    (h2P : (⟨2, ![1, P]⟩ : Shape).BroadcastsInDim ⟨2, ![a, P]⟩ ![0, 1])
    (h1R : (⟨1, ![R]⟩ : Shape).BroadcastsInDim ⟨2, ![1, R]⟩ ![1])
    (h2R : (⟨2, ![1, R]⟩ : Shape).BroadcastsInDim ⟨2, ![a, R]⟩ ![0, 1]) (r : Fin a) (j : Fin R) :
    addf (addf (Host.dotGeneral d3 none
          (mulf (addf (Host.dotGeneral d1 none x wc) (broadcastInDim ⟨2, ![a, P]⟩ ![0, 1] h2P (broadcastInDim ⟨2, ![1, P]⟩ ![1] h1P bc)))
                (addf (Host.dotGeneral d2 none u wu) (broadcastInDim ⟨2, ![a, P]⟩ ![0, 1] h2P (broadcastInDim ⟨2, ![1, P]⟩ ![1] h1P bu))))
          wr) (broadcastInDim ⟨2, ![a, R]⟩ ![0, 1] h2R (broadcastInDim ⟨2, ![1, R]⟩ ![1] h1R br))) fq (ix2 r j)
      = relHead x wc bc u wu bu wr br fq (ix2 r j) := by
  rw [relHead_apply]
  refine congrArg (· + fq (ix2 r j)) ?_
  refine (host_affine_apply _ wr br hd3 none h1R h2R r j).trans ?_
  rw [affine_apply, affine_apply]
  refine congrArg (· + br (ix1 j)) ?_
  refine congrFun (prodRow_congr _ (gate x wc bc u wu bu) wr r r fun k => ?_) j
  rw [gate_apply, ← host_affine_apply x wc bc hd1 none h1P h2P r k, ← host_affine_apply u wu bu hd2 none h1P h2P r k]
  rfl

end Host

end Cert.RelHead

end
-- ==== Proof.PostEmbValue.lean ====
/-
  What the first kernel region leaves in its output array: the dense layer `edge · w + b` of the region's three
  input arrays, entry by entry.

  The region walks the `6144` rows of the left operand in six blocks of `1024` rows; at a block it multiplies the
  block by the whole `[512, 1024]` weight matrix into a zero accumulator, adds the bias — held as a `[1, 1024]` row —
  to every row, and writes the `[1024, 1024]` result back as the same rows of the output. An entry of a dense layer
  depends on the left operand only through the entry's row, so each written block is the block of ONE whole-array
  function, and the six blocks cover the array.
-/
import proofs.«167476_j16269336118078_1_alg».proof.Proof.Gen.KernelIdeal.Frame
import proofs.«167476_j16269336118078_1_alg».proof.Proof.LibPlainDot
import proofs.«167476_j16269336118078_1_alg».proof.Proof.RelHead
import Idealize.ShloMosaic.Lib.Pipeline.Value
import Idealize.ShloMosaic.Lib.Tactic

set_option maxRecDepth 16384

noncomputable section

namespace Cert.KernelIdeal.PostEmb

open Idealize.ShloMosaic Idealize.ShloMosaic.TcCoe Idealize.SL.Sem Idealize.ShloMosaic.ValueIdx
open Idealize.ShloMosaic.Pipeline (Dat)
open Cert.KernelIdeal Cert.KernelIdeal.Gen Cert.DenseLayer Cert.BiasLayer Cert.RelHead

variable (V : (c : Dev nD) → (b : Ref sig .tc) → Buf (Elt Ideal) ((c : Thread nD τ).loc b))

/-- The region's three input arrays as it finds them, at their literal types. -/
abbrev lhs (c : Dev nD) : Vec Ideal S6144x512 .bf16 := V c main_v0
abbrev wgt (c : Dev nD) : Vec Ideal S512x1024 .bf16 := V c main_v1
abbrev bias (c : Dev nD) : Vec Ideal S1x1024 .f32 := V c main_v2

/-- The dense layer of the three arrays, as one function of the output's index. -/
def layer (c : Dev nD) : Vec Ideal S6144x1024 .f32 :=
  fun i => affine (lhs V c) (wgt V c) (rowOf (bias V c)) i

theorem hz : (![0, 0] : Fin 2 → Nat) = fun _ => 0 := funext fun a => by fin_cases a <;> rfl

/-- The block product contracts the left operand's columns against the weight's rows. -/
theorem plain : PlainDot (a := 1024) (K := 512) (N := 1024) dot_S1024x512_S512x1024_S1024x1024_1_0_0_1_n_n :=
  plainDot_of_axes _ rfl rfl rfl rfl rfl rfl

/-- The body's one stored value, at row `p` and column `q` of the block, is the dense layer of the loaded blocks. -/
theorem payload_apply (x0 : Vec Ideal S1024x512 .bf16) (x1 : Vec Ideal S512x1024 .bf16) (x2 : Vec Ideal S1x1024 .f32)
    (p q : Fin 1024) : k0_pay1 x0 x1 x2 (ix2 p q) = affine x0 x1 (rowOf x2) (ix2 p q) := by
  unfold k0_pay1
  simp only [shapeCast_self]
  exact vector_affineRow_apply plain none x0 x1 x2 _ p q

/-- Where each window's block sits at grid point `t`: the row blocks move with `t`, the weight and the bias stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the left operand's block at point `t` is row `1024 t + p` of the array. -/
theorem lhs_block (c : Dev nD) (t : Fin cfg0.N) (p : Fin 1024) (k : Fin 512) (r : Fin 6144) (hr : r.val = 1024 * t.val + p.val) :
    (iblk0 V c 0 t : Vec Ideal S1024x512 .bf16) (ix2 p k) = lhs V c (ix2 r k) := by
  obtain ⟨e0, e1, -⟩ := index_facts t
  unfold iblk0
  rw [View.read_apply]
  show V c main_v0 _ = V c main_v0 _
  refine congrArg (V c main_v0) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The weight's block at every point is the whole weight matrix. -/
theorem wgt_block (c : Dev nD) (t : Fin cfg0.N) (k : Fin 512) (q : Fin 1024) :
    (iblk0 V c 1 t : Vec Ideal S512x1024 .bf16) (ix2 k q) = wgt V c (ix2 k q) := by
  obtain ⟨-, -, e0, e1, -⟩ := index_facts t
  unfold iblk0
  rw [View.read_apply]
  show V c main_v1 _ = V c main_v1 _
  refine congrArg (V c main_v1) (funext fun a => Fin.ext ?_)
  match a with
  | ⟨0, _⟩ => show win0_1.index t (0 : Fin 2) * 512 + 1 * k.val = k.val; rw [e0]; omega
  | ⟨1, _⟩ => show win0_1.index t (1 : Fin 2) * 1024 + 1 * q.val = q.val; rw [e1]; omega

/-- The bias row's block at every point is the whole row. -/
theorem bias_block (c : Dev nD) (t : Fin cfg0.N) (u : Fin 1) (q : Fin 1024) :
    (iblk0 V c 2 t : Vec Ideal S1x1024 .f32) (ix2 u q) = bias V c (ix2 u q) := by
  obtain ⟨-, -, -, -, e0, e1, -⟩ := index_facts t
  unfold iblk0
  rw [View.read_apply]
  show V c main_v2 _ = V c main_v2 _
  refine congrArg (V c main_v2) (funext fun a => Fin.ext ?_)
  match a with
  | ⟨0, _⟩ => show win0_2.index t (0 : Fin 2) * 1 + 1 * u.val = u.val; rw [e0]; omega
  | ⟨1, _⟩ => show win0_2.index t (1 : Fin 2) * 1024 + 1 * q.val = q.val; rw [e1]; omega

/-- The dense layer of the blocks at point `t`, at row `p`, is the dense layer of the arrays at row `1024 t + p`. -/
theorem layer_block (c : Dev nD) (t : Fin cfg0.N) (p q : Fin 1024) (r : Fin 6144) (hr : r.val = 1024 * t.val + p.val) :
    affine (iblk0 V c 0 t : Vec Ideal S1024x512 .bf16) (iblk0 V c 1 t : Vec Ideal S512x1024 .bf16)
        (rowOf (iblk0 V c 2 t : Vec Ideal S1x1024 .f32)) (ix2 p q)
      = layer V c (ix2 r q) := by
  show _ = affine (lhs V c) (wgt V c) (rowOf (bias V c)) (ix2 r q)
  rw [affine_apply, affine_apply, rowOf_apply, rowOf_apply, bias_block V c t 0 q]
  refine congrArg (· + bias V c (ix2 (0 : Fin 1) q)) ?_
  unfold prodRow
  exact Finset.sum_congr rfl fun k _ => by rw [lhs_block V c t p k r hr, wgt_block V c t k q]

/-- What point `t` writes back is block `t` of the dense layer of the arrays. -/
theorem flushed_eq (c : Dev nD) (t : Fin cfg0.N) :
    (dat0 V c).flushed 3 t = ((cfg0.win 3).blk t).view.read (Elt Ideal) (layer V c) := by
  obtain ⟨-, -, -, -, -, -, e0, e1⟩ := index_facts t
  show (cfg0.win 3).cut (grid0.coords t) ((dat0 V c).after 3 t) = _
  rw [after0_3]
  unfold out0_3
  rw [View.canon_unit_zero hz]
  simp only [View.ld_unit_zero (S := S1024x512) hz, View.ld_unit_zero (S := S512x1024) hz, View.ld_unit_zero (S := S1x1024) hz]
  funext j
  obtain ⟨p, q, rfl⟩ : ∃ (p : Fin 1024) (q : Fin 1024), j = ix2 p q := ⟨j 0, j 1, eq_ix2 j⟩
  have hr : 1024 * t.val + p.val < 6144 := by
    have ht := t.isLt; have e : cfg0.N = 6 := N_0; have := p.isLt; omega
  refine (payload_apply _ _ _ p q).trans ((layer_block V c t p q ⟨1024 * t.val + p.val, hr⟩ rfl).trans ?_)
  rw [View.read_apply]
  refine congrArg (layer V c) (funext fun a => Fin.ext ?_)
  match a with
  | ⟨0, _⟩ => show 1024 * t.val + p.val = win0_3.index t (0 : Fin 2) * 1024 + 1 * p.val; rw [e0]; omega
  | ⟨1, _⟩ => show q.val = win0_3.index t (1 : Fin 2) * 1024 + 1 * q.val; rw [e1]; omega

/-- An index of the output array is in point `t`'s block iff each coordinate is in the block's range on its axis. -/
theorem mem_block (t : Fin cfg0.N) (i : S6144x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every entry of the output array is in some point's block: row `r` is written at point `r / 1024`. -/
theorem covered (i : S6144x1024.Idx) :
    ∃ t : Fin cfg0.N, (cfg0.win 3).flush t = true ∧ i ∈ ((cfg0.win 3).blk t).view.set := by
  have h0 : (i 0).val < 6144 := (i 0).isLt
  have h1 : (i 1).val < 1024 := (i 1).isLt
  refine ⟨⟨(i 0).val / 1024, by have e : cfg0.N = 6 := N_0; omega⟩, flush0_3 _, ?_⟩
  obtain ⟨-, -, -, -, -, -, e0, e1⟩ := index_facts ⟨(i 0).val / 1024, by have e : cfg0.N = 6 := N_0; omega⟩
  rw [mem_block]
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e1]; omega

/-- THE OUTPUT ARRAY after the region: the dense layer of the three input arrays. -/
theorem final (c : Dev nD) : (dat0 V c).arrAt 3 cfg0.N = layer V c :=
  (dat0 V c).arrAt_eq_of_cover 3 (layer V c) (fun t _ => flushed_eq V c t) covered

end Cert.KernelIdeal.PostEmb

end
-- ==== Proof.RelMainBlocks.lean ====
/- Where the second kernel region's input blocks sit in their arrays: the region's nine input arrays by name, the
   block index of each of its ten windows at every grid point (the three row-blocked operands and the output move
   with the point, the weights and the one-row biases stay), and each input window's block read at an index as its
   array read at an index. -/
import proofs.«167476_j16269336118078_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.RelMain

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The region's nine input arrays as it finds them, at their literal types -/

abbrev rep (c : Dev nD) : Vec Ideal S49152x1024 .bf16 := V c main_v52
abbrev uni (c : Dev nD) : Vec Ideal S49152x2048 .bf16 := V c main_v53
abbrev frq (c : Dev nD) : Vec Ideal S49152x51 .f32 := V c main_v51
abbrev wcat (c : Dev nD) : Vec Ideal S1024x4096 .bf16 := V c main_v54
abbrev bcat (c : Dev nD) : Vec Ideal S1x4096 .f32 := V c main_v57
abbrev wup (c : Dev nD) : Vec Ideal S2048x4096 .bf16 := V c main_v55
abbrev bup (c : Dev nD) : Vec Ideal S1x4096 .f32 := V c main_v58
abbrev wrel (c : Dev nD) : Vec Ideal S4096x51 .bf16 := V c main_v56
abbrev brel (c : Dev nD) : Vec Ideal S1x51 .f32 := V c main_v59

/-- Where each window's block sits at grid point `t`. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row `p` of the representations' block at point `t` is row `128 t + p` of the array. -/
theorem rep_block (c : Dev nD) (t : Fin cfg1.N) (p : Fin 128) (k : Fin 1024) (r : Fin 49152) (hr : r.val = 128 * t.val + p.val) :
    (iblk1 V c 0 t : Vec Ideal S128x1024 .bf16) (ix2 p k) = rep V c (ix2 r k) := by
  have e0 := (index_facts t).1
  have e1 := (index_facts t).2.1
  unfold iblk1
  rw [View.read_apply]
  show V c main_v52 _ = V c main_v52 _
  refine congrArg (V c main_v52) (funext fun a => Fin.ext ?_)
  match a with
  | ⟨0, _⟩ => show win1_0.index t (0 : Fin 2) * 128 + 1 * p.val = r.val; rw [e0, hr]; omega
  | ⟨1, _⟩ => show win1_0.index t (1 : Fin 2) * 1024 + 1 * k.val = k.val; rw [e1]; omega

/-- Row `p` of the union features' block at point `t` is row `128 t + p` of the array. -/
theorem uni_block (c : Dev nD) (t : Fin cfg1.N) (p : Fin 128) (k : Fin 2048) (r : Fin 49152) (hr : r.val = 128 * t.val + p.val) :
    (iblk1 V c 1 t : Vec Ideal S128x2048 .bf16) (ix2 p k) = uni V c (ix2 r k) := by
  have e0 := (index_facts t).2.2.1
  have e1 := (index_facts t).2.2.2.1
  unfold iblk1
  rw [View.read_apply]
  show V c main_v53 _ = V c main_v53 _
  refine congrArg (V c main_v53) (funext fun a => Fin.ext ?_)
  match a with
  | ⟨0, _⟩ => show win1_1.index t (0 : Fin 2) * 128 + 1 * p.val = r.val; rw [e0, hr]; omega
  | ⟨1, _⟩ => show win1_1.index t (1 : Fin 2) * 2048 + 1 * k.val = k.val; rw [e1]; omega

/-- Row `p` of the per-pair bias block at point `t` is row `128 t + p` of the array. -/
theorem frq_block (c : Dev nD) (t : Fin cfg1.N) (p : Fin 128) (k : Fin 51) (r : Fin 49152) (hr : r.val = 128 * t.val + p.val) :
    (iblk1 V c 2 t : Vec Ideal S128x51 .f32) (ix2 p k) = frq V c (ix2 r k) := by
  have e0 := (index_facts t).2.2.2.2.1
  have e1 := (index_facts t).2.2.2.2.2.1
  unfold iblk1
  rw [View.read_apply]
  show V c main_v51 _ = V c main_v51 _
  refine congrArg (V c main_v51) (funext fun a => Fin.ext ?_)
  match a with
  | ⟨0, _⟩ => show win1_2.index t (0 : Fin 2) * 128 + 1 * p.val = r.val; rw [e0, hr]; omega
  | ⟨1, _⟩ => show win1_2.index t (1 : Fin 2) * 51 + 1 * k.val = k.val; rw [e1]; omega

/-- The first weight's block at every point is the whole matrix. -/
theorem wcat_block (c : Dev nD) (t : Fin cfg1.N) (p : Fin 1024) (k : Fin 4096) :
    (iblk1 V c 3 t : Vec Ideal S1024x4096 .bf16) (ix2 p k) = wcat V c (ix2 p k) := by
  have e0 := (index_facts t).2.2.2.2.2.2.1
  have e1 := (index_facts t).2.2.2.2.2.2.2.1
  unfold iblk1
  rw [View.read_apply]
  show V c main_v54 _ = V c main_v54 _
  refine congrArg (V c main_v54) (funext fun a => Fin.ext ?_)
  match a with
  | ⟨0, _⟩ => show win1_3.index t (0 : Fin 2) * 1024 + 1 * p.val = p.val; rw [e0]; omega
  | ⟨1, _⟩ => show win1_3.index t (1 : Fin 2) * 4096 + 1 * k.val = k.val; rw [e1]; omega

/-- The first bias row's block at every point is the whole row. -/
theorem bcat_block (c : Dev nD) (t : Fin cfg1.N) (p : Fin 1) (k : Fin 4096) :
    (iblk1 V c 4 t : Vec Ideal S1x4096 .f32) (ix2 p k) = bcat V c (ix2 p k) := by
  have e0 := (index_facts t).2.2.2.2.2.2.2.2.1
  have e1 := (index_facts t).2.2.2.2.2.2.2.2.2.1
  unfold iblk1
  rw [View.read_apply]
  show V c main_v57 _ = V c main_v57 _
  refine congrArg (V c main_v57) (funext fun a => Fin.ext ?_)
  match a with
  | ⟨0, _⟩ => show win1_4.index t (0 : Fin 2) * 1 + 1 * p.val = p.val; rw [e0]; omega
  | ⟨1, _⟩ => show win1_4.index t (1 : Fin 2) * 4096 + 1 * k.val = k.val; rw [e1]; omega

/-- The second weight's block at every point is the whole matrix. -/
theorem wup_block (c : Dev nD) (t : Fin cfg1.N) (p : Fin 2048) (k : Fin 4096) :
    (iblk1 V c 5 t : Vec Ideal S2048x4096 .bf16) (ix2 p k) = wup V c (ix2 p k) := by
  have e0 := (index_facts t).2.2.2.2.2.2.2.2.2.2.1
  have e1 := (index_facts t).2.2.2.2.2.2.2.2.2.2.2.1
  unfold iblk1
  rw [View.read_apply]
  show V c main_v55 _ = V c main_v55 _
  refine congrArg (V c main_v55) (funext fun a => Fin.ext ?_)
  match a with
  | ⟨0, _⟩ => show win1_5.index t (0 : Fin 2) * 2048 + 1 * p.val = p.val; rw [e0]; omega
  | ⟨1, _⟩ => show win1_5.index t (1 : Fin 2) * 4096 + 1 * k.val = k.val; rw [e1]; omega

/-- The second bias row's block at every point is the whole row. -/
theorem bup_block (c : Dev nD) (t : Fin cfg1.N) (p : Fin 1) (k : Fin 4096) :
    (iblk1 V c 6 t : Vec Ideal S1x4096 .f32) (ix2 p k) = bup V c (ix2 p k) := by
  have e0 := (index_facts t).2.2.2.2.2.2.2.2.2.2.2.2.1
  have e1 := (index_facts t).2.2.2.2.2.2.2.2.2.2.2.2.2.1
  unfold iblk1
  rw [View.read_apply]
  show V c main_v58 _ = V c main_v58 _
  refine congrArg (V c main_v58) (funext fun a => Fin.ext ?_)
  match a with
  | ⟨0, _⟩ => show win1_6.index t (0 : Fin 2) * 1 + 1 * p.val = p.val; rw [e0]; omega
  | ⟨1, _⟩ => show win1_6.index t (1 : Fin 2) * 4096 + 1 * k.val = k.val; rw [e1]; omega

/-- The last weight's block at every point is the whole matrix. -/
theorem wrel_block (c : Dev nD) (t : Fin cfg1.N) (p : Fin 4096) (k : Fin 51) :
    (iblk1 V c 7 t : Vec Ideal S4096x51 .bf16) (ix2 p k) = wrel V c (ix2 p k) := by
  have e0 := (index_facts t).2.2.2.2.2.2.2.2.2.2.2.2.2.2.1
  have e1 := (index_facts t).2.2.2.2.2.2.2.2.2.2.2.2.2.2.2.1
  unfold iblk1
  rw [View.read_apply]
  show V c main_v56 _ = V c main_v56 _
  refine congrArg (V c main_v56) (funext fun a => Fin.ext ?_)
  match a with
  | ⟨0, _⟩ => show win1_7.index t (0 : Fin 2) * 4096 + 1 * p.val = p.val; rw [e0]; omega
  | ⟨1, _⟩ => show win1_7.index t (1 : Fin 2) * 51 + 1 * k.val = k.val; rw [e1]; omega

/-- The last bias row's block at every point is the whole row. -/
theorem brel_block (c : Dev nD) (t : Fin cfg1.N) (p : Fin 1) (k : Fin 51) :
    (iblk1 V c 8 t : Vec Ideal S1x51 .f32) (ix2 p k) = brel V c (ix2 p k) := by
  have e0 := (index_facts t).2.2.2.2.2.2.2.2.2.2.2.2.2.2.2.2.1
  have e1 := (index_facts t).2.2.2.2.2.2.2.2.2.2.2.2.2.2.2.2.2.1
  unfold iblk1
  rw [View.read_apply]
  show V c main_v59 _ = V c main_v59 _
  refine congrArg (V c main_v59) (funext fun a => Fin.ext ?_)
  match a with
  | ⟨0, _⟩ => show win1_8.index t (0 : Fin 2) * 1 + 1 * p.val = p.val; rw [e0]; omega
  | ⟨1, _⟩ => show win1_8.index t (1 : Fin 2) * 51 + 1 * k.val = k.val; rw [e1]; omega

end Cert.KernelIdeal.RelMain

end
-- ==== Proof.RelMainValue.lean ====
/-
  What the second kernel region leaves in its output array: the relation head of the region's nine input arrays,
  entry by entry.

  The region walks the `49152` pairs in `384` blocks of `128` rows. At a block it takes the pairs' representations
  and union features through their two dense layers (whole weight matrices, each bias held as a one-row matrix),
  multiplies the two results, takes the product through the last dense layer, adds its bias and the block's rows of
  the per-pair bias, and writes the `[128, 51]` result back as the same rows of the output. An entry of the head
  depends on the three row-blocked operands only through the entry's row, so each written block is the block of ONE
  whole-array function, and the `384` blocks cover the array. (Where each window's block sits in its array is the
  imported table of block reads.)
-/
import proofs.«167476_j16269336118078_1_alg».proof.Proof.Gen.KernelIdeal.Frame
import proofs.«167476_j16269336118078_1_alg».proof.Proof.RelMainBlocks
import proofs.«167476_j16269336118078_1_alg».proof.Proof.LibPlainDot
import proofs.«167476_j16269336118078_1_alg».proof.Proof.RelHead
import Idealize.ShloMosaic.Lib.Pipeline.Value
import Idealize.ShloMosaic.Lib.Tactic

set_option maxRecDepth 16384

noncomputable section

namespace Cert.KernelIdeal.RelMain

open Idealize.ShloMosaic Idealize.ShloMosaic.TcCoe Idealize.SL.Sem Idealize.ShloMosaic.ValueIdx
open Idealize.ShloMosaic.Pipeline (Dat)
open Cert.KernelIdeal Cert.KernelIdeal.Gen Cert.DenseLayer Cert.BiasLayer Cert.RelHead

variable (V : (c : Dev nD) → (b : Ref sig .tc) → Buf (Elt Ideal) ((c : Thread nD τ).loc b))

/-- The relation head of the nine arrays, as one function of the output's index. -/
def head (c : Dev nD) : Vec Ideal S49152x51 .f32 :=
  fun i => relHead (rep V c) (wcat V c) (rowOf (bcat V c)) (uni V c) (wup V c) (rowOf (bup V c))
    (wrel V c) (rowOf (brel V c)) (frq V c) i

theorem hz : (![0, 0] : Fin 2 → Nat) = fun _ => 0 := funext fun a => by fin_cases a <;> rfl

/-- Each of the body's three products contracts its left operand's columns against its right operand's rows. -/
theorem plain_cat : PlainDot (a := 128) (K := 1024) (N := 4096) dot_S128x1024_S1024x4096_S128x4096_1_0_0_1_n_n :=
  plainDot_of_axes _ rfl rfl rfl rfl rfl rfl
theorem plain_up : PlainDot (a := 128) (K := 2048) (N := 4096) dot_S128x2048_S2048x4096_S128x4096_1_0_0_1_n_n :=
  plainDot_of_axes _ rfl rfl rfl rfl rfl rfl
theorem plain_rel : PlainDot (a := 128) (K := 4096) (N := 51) dot_S128x4096_S4096x51_S128x51_1_0_0_1_n_n :=
  plainDot_of_axes _ rfl rfl rfl rfl rfl rfl

/-- The body's one stored value, at row `p` and class `j` of the block, is the relation head of the loaded blocks. -/
theorem payload_apply (x : Vec Ideal S128x1024 .bf16) (u : Vec Ideal S128x2048 .bf16) (wc : Vec Ideal S1024x4096 .bf16)
    (bc : Vec Ideal S1x4096 .f32) (wu : Vec Ideal S2048x4096 .bf16) (bu : Vec Ideal S1x4096 .f32)
    (wr : Vec Ideal S4096x51 .bf16) (br : Vec Ideal S1x51 .f32) (fq : Vec Ideal S128x51 .f32) (p : Fin 128) (j : Fin 51) :
    k1_pay1 x u wc bc wu bu wr br fq (ix2 p j)
      = relHead x wc (rowOf bc) u wu (rowOf bu) wr (rowOf br) fq (ix2 p j) := by
  unfold k1_pay1
  simp only [shapeCast_self]
  exact vector_relHead_apply plain_cat plain_up plain_rel x wc bc u wu bu wr br fq _ _ .bf16 _ p j

/-- The relation head of the blocks at point `t`, at row `p`, is the relation head of the arrays at row `128 t + p`. -/
theorem head_block (c : Dev nD) (t : Fin cfg1.N) (p : Fin 128) (j : Fin 51) (r : Fin 49152) (hr : r.val = 128 * t.val + p.val) :
    relHead (iblk1 V c 0 t : Vec Ideal S128x1024 .bf16) (iblk1 V c 3 t : Vec Ideal S1024x4096 .bf16)
        (rowOf (iblk1 V c 4 t : Vec Ideal S1x4096 .f32)) (iblk1 V c 1 t : Vec Ideal S128x2048 .bf16)
        (iblk1 V c 5 t : Vec Ideal S2048x4096 .bf16) (rowOf (iblk1 V c 6 t : Vec Ideal S1x4096 .f32))
        (iblk1 V c 7 t : Vec Ideal S4096x51 .bf16) (rowOf (iblk1 V c 8 t : Vec Ideal S1x51 .f32))
        (iblk1 V c 2 t : Vec Ideal S128x51 .f32) (ix2 p j)
      = head V c (ix2 r j) := by
  have hwc : (iblk1 V c 3 t : Vec Ideal S1024x4096 .bf16) = wcat V c :=
    funext fun i => by rw [eq_ix2 i]; exact wcat_block V c t _ _
  have hwu : (iblk1 V c 5 t : Vec Ideal S2048x4096 .bf16) = wup V c :=
    funext fun i => by rw [eq_ix2 i]; exact wup_block V c t _ _
  have hwr : (iblk1 V c 7 t : Vec Ideal S4096x51 .bf16) = wrel V c :=
    funext fun i => by rw [eq_ix2 i]; exact wrel_block V c t _ _
  have hbc : (iblk1 V c 4 t : Vec Ideal S1x4096 .f32) = bcat V c :=
    funext fun i => by rw [eq_ix2 i]; exact bcat_block V c t _ _
  have hbu : (iblk1 V c 6 t : Vec Ideal S1x4096 .f32) = bup V c :=
    funext fun i => by rw [eq_ix2 i]; exact bup_block V c t _ _
  have hbr : (iblk1 V c 8 t : Vec Ideal S1x51 .f32) = brel V c :=
    funext fun i => by rw [eq_ix2 i]; exact brel_block V c t _ _
  rw [hwc, hwu, hwr, hbc, hbu, hbr]
  exact relHead_congr _ (rep V c) _ _ _ (uni V c) _ _ _ _ _ (frq V c) p r
    (fun k => rep_block V c t p k r hr) (fun k => uni_block V c t p k r hr) j (frq_block V c t p j r hr)

/-- What point `t` writes back is block `t` of the relation head of the arrays. -/
theorem flushed_eq (c : Dev nD) (t : Fin cfg1.N) :
    (dat1 V c).flushed 9 t = ((cfg1.win 9).blk t).view.read (Elt Ideal) (head V c) := by
  have e0 := (index_facts t).2.2.2.2.2.2.2.2.2.2.2.2.2.2.2.2.2.2.1
  have e1 := (index_facts t).2.2.2.2.2.2.2.2.2.2.2.2.2.2.2.2.2.2.2
  show (cfg1.win 9).cut (grid1.coords t) ((dat1 V c).after 9 t) = _
  rw [after1_9]
  unfold out1_9
  rw [View.canon_unit_zero hz]
  simp only [View.ld_unit_zero (S := S128x1024) hz, View.ld_unit_zero (S := S128x2048) hz, View.ld_unit_zero (S := S128x51) hz,
    View.ld_unit_zero (S := S1024x4096) hz, View.ld_unit_zero (S := S1x4096) hz, View.ld_unit_zero (S := S2048x4096) hz,
    View.ld_unit_zero (S := S4096x51) hz, View.ld_unit_zero (S := S1x51) hz]
  funext i
  obtain ⟨p, j, rfl⟩ : ∃ (p : Fin 128) (j : Fin 51), i = ix2 p j := ⟨i 0, i 1, eq_ix2 i⟩
  have hr : 128 * t.val + p.val < 49152 := by
    have ht := t.isLt; have e : cfg1.N = 384 := N_1; have := p.isLt; omega
  refine (payload_apply _ _ _ _ _ _ _ _ _ p j).trans ((head_block V c t p j ⟨128 * t.val + p.val, hr⟩ rfl).trans ?_)
  rw [View.read_apply]
  refine congrArg (head V c) (funext fun a => Fin.ext ?_)
  match a with
  | ⟨0, _⟩ => show 128 * t.val + p.val = win1_9.index t (0 : Fin 2) * 128 + 1 * p.val; rw [e0]; omega
  | ⟨1, _⟩ => show j.val = win1_9.index t (1 : Fin 2) * 51 + 1 * j.val; rw [e1]; omega

/-- An index of the output array is in point `t`'s block iff each coordinate is in the block's range on its axis. -/
theorem mem_block (t : Fin cfg1.N) (i : S49152x51.Idx) :
    i ∈ ((cfg1.win 9).blk t).view.set ↔ ∀ a : Fin 2, win1_9.index t a * S128x51.size a ≤ (i a).val
      ∧ (i a).val < win1_9.index t a * S128x51.size a + S128x51.size a := by
  show i ∈ ((View.whole main_v60).slice (win1_9.rect t)).set ↔ _
  rw [View.set_slice_whole, Rect.mem_set_unit]
  exact Iff.rfl

/-- Every entry of the output array is in some point's block: row `r` is written at point `r / 128`. -/
theorem covered (i : S49152x51.Idx) :
    ∃ t : Fin cfg1.N, (cfg1.win 9).flush t = true ∧ i ∈ ((cfg1.win 9).blk t).view.set := by
  have h0 : (i 0).val < 49152 := (i 0).isLt
  have h1 : (i 1).val < 51 := (i 1).isLt
  have ht : (i 0).val / 128 < cfg1.N := by have e : cfg1.N = 384 := N_1; omega
  have e0 := (index_facts ⟨(i 0).val / 128, ht⟩).2.2.2.2.2.2.2.2.2.2.2.2.2.2.2.2.2.2.1
  have e1 := (index_facts ⟨(i 0).val / 128, ht⟩).2.2.2.2.2.2.2.2.2.2.2.2.2.2.2.2.2.2.2
  refine ⟨⟨(i 0).val / 128, ht⟩, flush1_9 _, ?_⟩
  rw [mem_block]
  intro a
  match a with
  | ⟨0, _⟩ =>
    show win1_9.index _ (0 : Fin 2) * 128 ≤ (i 0).val ∧ (i 0).val < win1_9.index _ (0 : Fin 2) * 128 + 128
    rw [e0]; show (i 0).val / 128 * 128 ≤ (i 0).val ∧ (i 0).val < (i 0).val / 128 * 128 + 128; omega
  | ⟨1, _⟩ =>
    show win1_9.index _ (1 : Fin 2) * 51 ≤ (i 1).val ∧ (i 1).val < win1_9.index _ (1 : Fin 2) * 51 + 51
    rw [e1]; omega

/-- THE OUTPUT ARRAY after the region: the relation head of the nine input arrays. -/
theorem final (c : Dev nD) : (dat1 V c).arrAt 9 cfg1.N = head V c :=
  (dat1 V c).arrAt_eq_of_cover 9 (head V c) (fun t _ => flushed_eq V c t) covered

end Cert.KernelIdeal.RelMain

end
-- ==== Proof.KernelValue.lean ====
/-
  The idealized kernel program's result as one function of its thirteen arguments.

  The program runs a stretch of host operations, the first kernel region, a second stretch, and the second region.
  Read back through that chain at the ideal values (where a change of float format is the identity): the first
  stretch hands the first region the context features, the first weight and the first bias as a one-row matrix, so
  the region leaves the table of object representations `edge_ctx · W + b` (`objReps`); the second stretch builds
  from that table and the pair table the matrix of pair representations, looks the per-pair bias rows up in the
  frequency table, and lays the three remaining biases out as one-row matrices; the second region leaves the relation
  head of all of these (`result`).
-/
import proofs.«167476_j16269336118078_1_alg».proof.Proof.Gen.KernelIdeal.Frame
import proofs.«167476_j16269336118078_1_alg».proof.Proof.HostChain
import proofs.«167476_j16269336118078_1_alg».proof.Proof.PostEmbValue
import proofs.«167476_j16269336118078_1_alg».proof.Proof.RelMainValue
import Idealize.ShloMosaic.Lib.StableHlo.Run

set_option maxRecDepth 16384

noncomputable section

namespace Cert.KernelIdeal.Boundary

open Idealize.ShloMosaic Idealize.ShloMosaic.TcCoe Idealize.SL.Sem Idealize.ShloMosaic.ValueIdx Idealize.ShloMosaic.StableHlo
open Cert.KernelIdeal Cert.KernelIdeal.Gen Cert.DenseLayer Cert.BiasLayer Cert.RelHead Cert.HostChain

variable (m : (ℓ : Loc nD τ sig) → Buf (Elt Ideal) ℓ) (ρ : Dev nD → PrngReg)

/-! ## The arguments, at their literal types -/

/-- The objects' context features. -/
abbrev edgeCtx (c : Dev nD) : FVec Ideal S6144x512 .f32 := m ((c : Thread nD τ).loc main_arg0)
/-- The pairs' union features. -/
abbrev unionFeat (c : Dev nD) : FVec Ideal S49152x2048 .f32 := m ((c : Thread nD τ).loc main_arg1)
/-- The first layer's weight. -/
abbrev wEmb (c : Dev nD) : FVec Ideal S512x1024 .f32 := m ((c : Thread nD τ).loc main_arg2)
/-- The first layer's bias. -/
abbrev bEmb (c : Dev nD) : FVec Ideal S1024 .f32 := m ((c : Thread nD τ).loc main_arg3)
/-- The pair layer's weight. -/
abbrev wCat (c : Dev nD) : FVec Ideal S1024x4096 .f32 := m ((c : Thread nD τ).loc main_arg4)
/-- The pair layer's bias. -/
abbrev bCat (c : Dev nD) : FVec Ideal S4096 .f32 := m ((c : Thread nD τ).loc main_arg5)
/-- The union layer's weight. -/
abbrev wUp (c : Dev nD) : FVec Ideal S2048x4096 .f32 := m ((c : Thread nD τ).loc main_arg6)
/-- The union layer's bias. -/
abbrev bUp (c : Dev nD) : FVec Ideal S4096 .f32 := m ((c : Thread nD τ).loc main_arg7)
/-- The relation layer's weight. -/
abbrev wRel (c : Dev nD) : FVec Ideal S4096x51 .f32 := m ((c : Thread nD τ).loc main_arg8)
/-- The relation layer's bias. -/
abbrev bRel (c : Dev nD) : FVec Ideal S51 .f32 := m ((c : Thread nD τ).loc main_arg9)
/-- The frequency table. -/
abbrev freqTab (c : Dev nD) : FVec Ideal S22801x51 .f32 := m ((c : Thread nD τ).loc main_arg10)
/-- The objects' classes. -/
abbrev objCls (c : Dev nD) : (⟨S6144, .i32⟩ : BufTy).Contents (Elt Ideal) := m ((c : Thread nD τ).loc main_arg11)
/-- The table of (head, tail) pairs. -/
abbrev pairTab (c : Dev nD) : (⟨S49152x2, .i32⟩ : BufTy).Contents (Elt Ideal) := m ((c : Thread nD τ).loc main_arg12)

/-! ## What the first region is entered with, and what it leaves -/

theorem entry0_lhs (c : Dev nD) : (V1 m ρ c main_v0 : Vec Ideal S6144x512 .bf16) = truncf .bf16 (edgeCtx m c) bitsLt_bf16_f32 := by
  show StableHlo.after hostOps0 (W0 m ρ c) (Proc.devRef .tc main_v0) = _
  after_results
  all_goals rfl

theorem entry0_wgt (c : Dev nD) : (V1 m ρ c main_v1 : Vec Ideal S512x1024 .bf16) = truncf .bf16 (wEmb m c) bitsLt_bf16_f32 := by
  show StableHlo.after hostOps0 (W0 m ρ c) (Proc.devRef .tc main_v1) = _
  after_results
  all_goals rfl

theorem entry0_bias (c : Dev nD) : (V1 m ρ c main_v2 : Vec Ideal S1x1024 .f32) = shapeCast S1x1024 (bEmb m c) shapeCasts_S1024_S1x1024 := by
  show StableHlo.after hostOps0 (W0 m ρ c) (Proc.devRef .tc main_v2) = _
  after_results
  all_goals rfl

/-- The table of object representations: `edge_ctx · W_post_emb + b_post_emb`, entry by entry. -/
def objReps (c : Dev nD) : FVec Ideal S6144x1024 .f32 :=
  fun i => affine (edgeCtx m c) (wEmb m c) (bEmb m c) i

/-- The first region leaves the table of object representations in its output array. -/
theorem region0_result (c : Dev nD) : W2 m ρ c (Proc.devRef .tc main_v3) = objReps m c := by
  refine (W2_arr m ρ c 3).trans ((PostEmb.final (V1 m ρ) c).trans ?_)
  have e0 : PostEmb.lhs (V1 m ρ) c = edgeCtx m c := entry0_lhs m ρ c
  have e1 : PostEmb.wgt (V1 m ρ) c = wEmb m c := entry0_wgt m ρ c
  have e2 : rowOf (PostEmb.bias (V1 m ρ) c) = bEmb m c :=
    (congrArg rowOf (entry0_bias m ρ c)).trans (rowOf_reshape (bEmb m c) _)
  unfold PostEmb.layer objReps
  rw [e0, e1, e2]

/-- The matrix of pair representations built from the table of object representations. -/
abbrev pairReps (c : Dev nD) : FVec Ideal S49152x1024 .f32 := K.pairRows (F := Ideal) (objReps m c) (pairTab m c)

/-- The matrix of per-pair bias rows looked up in the frequency table. -/
abbrev freqBias (c : Dev nD) : FVec Ideal S49152x51 .f32 := K.freqRows (F := Ideal) (freqTab m c) (objCls m c) (pairTab m c)

/-! ## The arguments are still as launched when the second stretch reads them -/

/-- A buffer that neither the first stretch of host operations nor the first region writes holds, at the first
    region's exit, what it held at launch. -/
theorem W2_untouched (c : Dev nD) (b : Ref sig .tc) (hreg : ∀ w, Pipeline.arrRef spec0 w ≠ b)
    (h0 : b ≠ main_v0) (h1 : b ≠ main_v1) (h2 : b ≠ main_v2) :
    W2 m ρ c (Proc.devRef .tc b) = m ((c : Thread nD τ).loc b) := by
  refine (W2_of_ne m ρ c b hreg).trans ?_
  refine (StableHlo.after_of_forall_not_mem (b := Proc.devRef .tc b) _ _ (List.forall_iff_forall_mem.mp ?_)).trans rfl
  simp only [hostOps0, List.Forall, StableHlo.unary_writes, StableHlo.reshape_writes, Finset.mem_singleton]
  exact ⟨StableHlo.devRef_ne_of_ne h0, StableHlo.devRef_ne_of_ne h1, StableHlo.devRef_ne_of_ne h2⟩

/-! ## What the second region is entered with -/

set_option maxHeartbeats 16000000 in
/-- The pair representations: gathered from the first region's table, narrowed. -/
theorem entry1_rep (c : Dev nD) : (V3 m ρ c main_v52 : Vec Ideal S49152x1024 .bf16)
    = truncf .bf16 (pairReps m c) bitsLt_bf16_f32 := by
  show StableHlo.after hostOps1 (W2 m ρ c) (Proc.devRef .tc main_v52) = _
  after_results
  rw [region0_result, W2_untouched m ρ c main_arg12 (by decide) (by decide) (by decide) (by decide)]
  all_goals rfl

set_option maxHeartbeats 16000000 in
/-- The per-pair bias rows: gathered from the frequency table. -/
theorem entry1_frq (c : Dev nD) : (V3 m ρ c main_v51 : Vec Ideal S49152x51 .f32)
    = freqBias m c := by
  show StableHlo.after hostOps1 (W2 m ρ c) (Proc.devRef .tc main_v51) = _
  after_results_simp
  rw [W2_untouched m ρ c main_arg10 (by decide) (by decide) (by decide) (by decide), W2_untouched m ρ c main_arg11 (by decide) (by decide) (by decide) (by decide), W2_untouched m ρ c main_arg12 (by decide) (by decide) (by decide) (by decide)]
  all_goals rfl

set_option maxHeartbeats 16000000 in
theorem entry1_uni (c : Dev nD) : (V3 m ρ c main_v53 : Vec Ideal S49152x2048 .bf16) = truncf .bf16 (unionFeat m c) bitsLt_bf16_f32 := by
  show StableHlo.after hostOps1 (W2 m ρ c) (Proc.devRef .tc main_v53) = _
  after_results_simp
  rw [W2_untouched m ρ c main_arg1 (by decide) (by decide) (by decide) (by decide)]
  all_goals rfl

set_option maxHeartbeats 16000000 in
theorem entry1_wcat (c : Dev nD) : (V3 m ρ c main_v54 : Vec Ideal S1024x4096 .bf16) = truncf .bf16 (wCat m c) bitsLt_bf16_f32 := by
  show StableHlo.after hostOps1 (W2 m ρ c) (Proc.devRef .tc main_v54) = _
  after_results_simp
  rw [W2_untouched m ρ c main_arg4 (by decide) (by decide) (by decide) (by decide)]
  all_goals rfl

set_option maxHeartbeats 16000000 in
theorem entry1_wup (c : Dev nD) : (V3 m ρ c main_v55 : Vec Ideal S2048x4096 .bf16) = truncf .bf16 (wUp m c) bitsLt_bf16_f32 := by
  show StableHlo.after hostOps1 (W2 m ρ c) (Proc.devRef .tc main_v55) = _
  after_results_simp
  rw [W2_untouched m ρ c main_arg6 (by decide) (by decide) (by decide) (by decide)]
  all_goals rfl

set_option maxHeartbeats 16000000 in
theorem entry1_wrel (c : Dev nD) : (V3 m ρ c main_v56 : Vec Ideal S4096x51 .bf16) = truncf .bf16 (wRel m c) bitsLt_bf16_f32 := by
  show StableHlo.after hostOps1 (W2 m ρ c) (Proc.devRef .tc main_v56) = _
  after_results_simp
  rw [W2_untouched m ρ c main_arg8 (by decide) (by decide) (by decide) (by decide)]
  all_goals rfl

set_option maxHeartbeats 16000000 in
theorem entry1_bcat (c : Dev nD) : (V3 m ρ c main_v57 : Vec Ideal S1x4096 .f32) = shapeCast S1x4096 (bCat m c) shapeCasts_S4096_S1x4096 := by
  show StableHlo.after hostOps1 (W2 m ρ c) (Proc.devRef .tc main_v57) = _
  after_results_simp
  rw [W2_untouched m ρ c main_arg5 (by decide) (by decide) (by decide) (by decide)]
  all_goals rfl

set_option maxHeartbeats 16000000 in
theorem entry1_bup (c : Dev nD) : (V3 m ρ c main_v58 : Vec Ideal S1x4096 .f32) = shapeCast S1x4096 (bUp m c) shapeCasts_S4096_S1x4096 := by
  show StableHlo.after hostOps1 (W2 m ρ c) (Proc.devRef .tc main_v58) = _
  after_results_simp
  rw [W2_untouched m ρ c main_arg7 (by decide) (by decide) (by decide) (by decide)]
  all_goals rfl

set_option maxHeartbeats 16000000 in
theorem entry1_brel (c : Dev nD) : (V3 m ρ c main_v59 : Vec Ideal S1x51 .f32) = shapeCast S1x51 (bRel m c) shapeCasts_S51_S1x51 := by
  show StableHlo.after hostOps1 (W2 m ρ c) (Proc.devRef .tc main_v59) = _
  after_results_simp
  rw [W2_untouched m ρ c main_arg9 (by decide) (by decide) (by decide) (by decide)]
  all_goals rfl

/-! ## The result -/

/-- The program's result: the relation head of the pair representations built from `objReps`, the union features, the
    three layers' weights and biases, and the per-pair rows of the frequency table. -/
def result (c : Dev nD) : FVec Ideal S49152x51 .f32 :=
  fun i => relHead (pairReps m c) (wCat m c) (bCat m c) (unionFeat m c) (wUp m c) (bUp m c)
    (wRel m c) (bRel m c) (freqBias m c) i

/-- The second region leaves `result` in the program's result buffer. -/
theorem result_eq (c : Dev nD) : W4 m ρ c (Proc.devRef .tc main_v60) = result m c := by
  refine (W4_arr m ρ c 9).trans ((RelMain.final (V3 m ρ) c).trans ?_)
  have h0 : RelMain.rep (V3 m ρ) c = pairReps m c := entry1_rep m ρ c
  have h1 : RelMain.uni (V3 m ρ) c = unionFeat m c := entry1_uni m ρ c
  have h2 : RelMain.frq (V3 m ρ) c = freqBias m c := entry1_frq m ρ c
  have h3 : RelMain.wcat (V3 m ρ) c = wCat m c := entry1_wcat m ρ c
  have h4 : rowOf (RelMain.bcat (V3 m ρ) c) = bCat m c :=
    (congrArg rowOf (entry1_bcat m ρ c)).trans (rowOf_reshape (bCat m c) _)
  have h5 : RelMain.wup (V3 m ρ) c = wUp m c := entry1_wup m ρ c
  have h6 : rowOf (RelMain.bup (V3 m ρ) c) = bUp m c :=
    (congrArg rowOf (entry1_bup m ρ c)).trans (rowOf_reshape (bUp m c) _)
  have h7 : RelMain.wrel (V3 m ρ) c = wRel m c := entry1_wrel m ρ c
  have h8 : rowOf (RelMain.brel (V3 m ρ) c) = bRel m c :=
    (congrArg rowOf (entry1_brel m ρ c)).trans (rowOf_reshape (bRel m c) _)
  unfold RelMain.head result
  rw [h0, h1, h2, h3, h4, h5, h6, h7, h8]

end Cert.KernelIdeal.Boundary

end
-- ==== Proof.ReferenceValue.lean ====
/-
  The idealized reference program's result as one function of its thirteen arguments: the relation head of the
  pair representations built from the table of object representations `edge_ctx · W + b`, the union features, the
  three layers' weights and biases, and the per-pair rows of the frequency table.

  The reference is one stretch of host operations. Its result term is the host spelling of the head (three
  `dot_general`s, each bias laid out by two `broadcast_in_dim`s) over the shared host glue (`res_shape`); the first
  layer read entry by entry is the table of object representations (`objReps_eq`), and the rest read entry by entry
  is the relation head (`result_eq`).
-/
import proofs.«167476_j16269336118078_1_alg».proof.Proof.Gen.ReferenceIdeal.Run
import proofs.«167476_j16269336118078_1_alg».proof.Proof.HostChain
import proofs.«167476_j16269336118078_1_alg».proof.Proof.LibPlainDot
import proofs.«167476_j16269336118078_1_alg».proof.Proof.RelHead

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.DenseLayer Cert.BiasLayer Cert.RelHead Cert.HostChain

variable (m : (ℓ : Loc nD τ sig) → Buf (Elt Ideal) ℓ)

/-! ## The arguments, at their literal types -/

abbrev edgeCtx (c : Dev nD) : FVec Ideal S6144x512 .f32 := m ((c : Thread nD τ).loc main_arg0)
abbrev unionFeat (c : Dev nD) : FVec Ideal S49152x2048 .f32 := m ((c : Thread nD τ).loc main_arg1)
abbrev wEmb (c : Dev nD) : FVec Ideal S512x1024 .f32 := m ((c : Thread nD τ).loc main_arg2)
abbrev bEmb (c : Dev nD) : FVec Ideal S1024 .f32 := m ((c : Thread nD τ).loc main_arg3)
abbrev wCat (c : Dev nD) : FVec Ideal S1024x4096 .f32 := m ((c : Thread nD τ).loc main_arg4)
abbrev bCat (c : Dev nD) : FVec Ideal S4096 .f32 := m ((c : Thread nD τ).loc main_arg5)
abbrev wUp (c : Dev nD) : FVec Ideal S2048x4096 .f32 := m ((c : Thread nD τ).loc main_arg6)
abbrev bUp (c : Dev nD) : FVec Ideal S4096 .f32 := m ((c : Thread nD τ).loc main_arg7)
abbrev wRel (c : Dev nD) : FVec Ideal S4096x51 .f32 := m ((c : Thread nD τ).loc main_arg8)
abbrev bRel (c : Dev nD) : FVec Ideal S51 .f32 := m ((c : Thread nD τ).loc main_arg9)
abbrev freqTab (c : Dev nD) : FVec Ideal S22801x51 .f32 := m ((c : Thread nD τ).loc main_arg10)
abbrev objCls (c : Dev nD) : (⟨S6144, .i32⟩ : BufTy).Contents (Elt Ideal) := m ((c : Thread nD τ).loc main_arg11)
abbrev pairTab (c : Dev nD) : (⟨S49152x2, .i32⟩ : BufTy).Contents (Elt Ideal) := m ((c : Thread nD τ).loc main_arg12)

/-! ## The result -/

/-- The table of object representations: `edge_ctx · W_post_emb + b_post_emb`, entry by entry. -/
def objReps (c : Dev nD) : FVec Ideal S6144x1024 .f32 :=
  fun i => affine (edgeCtx m c) (wEmb m c) (bEmb m c) i

/-- The program's result: the relation head over the shared host glue. -/
def result (c : Dev nD) : FVec Ideal S49152x51 .f32 :=
  fun i => relHead (R.pairRows (F := Ideal) (objReps m c) (pairTab m c)) (wCat m c) (bCat m c) (unionFeat m c) (wUp m c) (bUp m c)
    (wRel m c) (bRel m c) (R.freqRows (F := Ideal) (freqTab m c) (objCls m c) (pairTab m c)) i

/-- Each of the four products contracts its left operand's columns against its right operand's rows. -/
theorem plain_emb : PlainDot (a := 6144) (K := 512) (N := 1024) dot_S6144x512_S512x1024_S6144x1024_1_0_0_1_n_n :=
  plainDot_of_axes _ rfl rfl rfl rfl rfl rfl
theorem plain_cat : PlainDot (a := 49152) (K := 1024) (N := 4096) dot_S49152x1024_S1024x4096_S49152x4096_1_0_0_1_n_n :=
  plainDot_of_axes _ rfl rfl rfl rfl rfl rfl
theorem plain_up : PlainDot (a := 49152) (K := 2048) (N := 4096) dot_S49152x2048_S2048x4096_S49152x4096_1_0_0_1_n_n :=
  plainDot_of_axes _ rfl rfl rfl rfl rfl rfl
theorem plain_rel : PlainDot (a := 49152) (K := 4096) (N := 51) dot_S49152x4096_S4096x51_S49152x51_1_0_0_1_n_n :=
  plainDot_of_axes _ rfl rfl rfl rfl rfl rfl

/-- The run's result term is the host spelling of the head over the shared host glue: the same operations, grouped. -/
theorem res_shape (c : Dev nD) : (res_main_v69 m c : FVec Ideal S49152x51 .f32) =
    addf (addf (Host.dotGeneral dot_S49152x4096_S4096x51_S49152x51_1_0_0_1_n_n none
        (mulf
          (addf (Host.dotGeneral (φ₁ := .f32) dot_S49152x1024_S1024x4096_S49152x4096_1_0_0_1_n_n none
              (R.pairRows (F := Ideal)
                (addf (Host.dotGeneral dot_S6144x512_S512x1024_S6144x1024_1_0_0_1_n_n none (edgeCtx m c) (wEmb m c))
                  (broadcastInDim S6144x1024 ![0, 1] bcast_S1x1024_S6144x1024_0_1 (broadcastInDim S1x1024 ![1] bcast_S1024_S1x1024_1 (bEmb m c))))
                (pairTab m c) : FVec Ideal S49152x1024 .f32)
              (wCat m c))
            (broadcastInDim S49152x4096 ![0, 1] bcast_S1x4096_S49152x4096_0_1 (broadcastInDim S1x4096 ![1] bcast_S4096_S1x4096_1 (bCat m c))))
          (addf (Host.dotGeneral dot_S49152x2048_S2048x4096_S49152x4096_1_0_0_1_n_n none (unionFeat m c) (wUp m c))
            (broadcastInDim S49152x4096 ![0, 1] bcast_S1x4096_S49152x4096_0_1 (broadcastInDim S1x4096 ![1] bcast_S4096_S1x4096_1 (bUp m c)))))
        (wRel m c))
      (broadcastInDim S49152x51 ![0, 1] bcast_S1x51_S49152x51_0_1 (broadcastInDim S1x51 ![1] bcast_S51_S1x51_1 (bRel m c))))
      (R.freqRows (F := Ideal) (freqTab m c) (objCls m c) (pairTab m c) : FVec Ideal S49152x51 .f32) := by
  unfold res_main_v69
  rfl

/-- The first layer as the host spells it is the table of object representations. -/
theorem objReps_eq (c : Dev nD) :
    addf (Host.dotGeneral dot_S6144x512_S512x1024_S6144x1024_1_0_0_1_n_n none (edgeCtx m c) (wEmb m c))
        (broadcastInDim S6144x1024 ![0, 1] bcast_S1x1024_S6144x1024_0_1 (broadcastInDim S1x1024 ![1] bcast_S1024_S1x1024_1 (bEmb m c)))
      = objReps m c :=
  funext fun i => by
    rw [eq_ix2 i]
    exact host_affine_apply (edgeCtx m c) (wEmb m c) (bEmb m c) plain_emb none _ _ _ _

/-- THE REFERENCE'S RESULT is the relation head over the shared host glue. -/
theorem result_eq (c : Dev nD) : (res_main_v69 m c : FVec Ideal S49152x51 .f32) = result m c := by
  rw [res_shape, objReps_eq]
  funext i
  rw [eq_ix2 i]
  exact host_relHead_apply plain_cat plain_up plain_rel _ (wCat m c) (bCat m c) (unionFeat m c) (wUp m c) (bUp m c)
    (wRel m c) (bRel m c) _ _ _ _ _ _ _

end Cert.ReferenceIdeal.RefValue

end
-- ==== Proof.lean ====
/-
  The proof of `Cert.Claim`: a relation head for scene graphs in two kernels — a dense layer over the objects' context
  features in one kernel; pair representations gathered from its result and per-pair bias rows gathered from a
  frequency table on the host; then a second kernel that takes the pair representations and the pairs' union features
  through two dense layers, multiplies the results, and takes the product through a last dense layer plus the two
  biases — against the same head written as whole-array host operations.

  At the ideal values a change of float format is the identity and a matrix product is the textbook sum, whether it
  is blocked over rows or not, so both programs compute ONE function of the thirteen arguments:
  `relHead (pairRows (edge_ctx · W + b) pairs) … (freqRows table classes pairs)`. The kernel side reads it off the
  two regions' write-backs (each block written is the block of a whole-array function whose entries depend on the
  row-blocked operands only through the entry's row, and the blocks cover the arrays); the reference side reads it off
  its run's term. The two programs spell the host glue — slices, reshapes, an index wrap-around, row gathers — with
  the same operations, so that part needs no reading at all. No law of the extended reals beyond congruence is used,
  and the precondition is never opened.

  The frames of the two kernel programs are the generated ones; the reference's frame is its generated run with the
  result dropped; `preserves` is trivial (the idealization rewrote nothing).
-/
import proofs.«167476_j16269336118078_1_alg».proof.Defs
import proofs.«167476_j16269336118078_1_alg».proof.Proof.Gen.Kernel
import proofs.«167476_j16269336118078_1_alg».proof.Proof.Gen.Kernel.Skeleton
import proofs.«167476_j16269336118078_1_alg».proof.Proof.Gen.Kernel.Launch
import proofs.«167476_j16269336118078_1_alg».proof.Proof.Gen.Kernel.Points
import proofs.«167476_j16269336118078_1_alg».proof.Proof.Gen.Kernel.Frame
import proofs.«167476_j16269336118078_1_alg».proof.Proof.Gen.KernelIdeal
import proofs.«167476_j16269336118078_1_alg».proof.Proof.Gen.KernelIdeal.Skeleton
import proofs.«167476_j16269336118078_1_alg».proof.Proof.Gen.KernelIdeal.Launch
import proofs.«167476_j16269336118078_1_alg».proof.Proof.Gen.KernelIdeal.Points
import proofs.«167476_j16269336118078_1_alg».proof.Proof.Gen.KernelIdeal.Frame
import proofs.«167476_j16269336118078_1_alg».proof.Proof.Gen.ReferenceIdeal
import proofs.«167476_j16269336118078_1_alg».proof.Proof.Gen.ReferenceIdeal.Run
import proofs.«167476_j16269336118078_1_alg».proof.Proof.Gen.Pre_finite_inputs
import proofs.«167476_j16269336118078_1_alg».proof.Proof.KernelRun
import proofs.«167476_j16269336118078_1_alg».proof.Proof.KernelValue
import proofs.«167476_j16269336118078_1_alg».proof.Proof.ReferenceValue
import proofs.«167476_j16269336118078_1_alg».proof.Proof.HostChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The relation head over the host glue, as a function of the thirteen argument arrays: the table of object
    representations `a0 · a2 + a3`, the pair representations and per-pair bias rows built from it and from the
    pair table `a12`, the class table `a11` and the frequency table `a10`, then the head with the union features `a1`
    and the three layers' weights and biases. -/
def headOf (a0 : FVec Ideal Cert.KernelIdeal.S6144x512 .f32) (a1 : FVec Ideal Cert.KernelIdeal.S49152x2048 .f32)
    (a2 : FVec Ideal Cert.KernelIdeal.S512x1024 .f32) (a3 : FVec Ideal Cert.KernelIdeal.S1024 .f32)
    (a4 : FVec Ideal Cert.KernelIdeal.S1024x4096 .f32) (a5 : FVec Ideal Cert.KernelIdeal.S4096 .f32)
    (a6 : FVec Ideal Cert.KernelIdeal.S2048x4096 .f32) (a7 : FVec Ideal Cert.KernelIdeal.S4096 .f32)
    (a8 : FVec Ideal Cert.KernelIdeal.S4096x51 .f32) (a9 : FVec Ideal Cert.KernelIdeal.S51 .f32)
    (a10 : FVec Ideal Cert.KernelIdeal.S22801x51 .f32) (a11 : (⟨Cert.KernelIdeal.S6144, .i32⟩ : BufTy).Contents (Elt Ideal))
    (a12 : (⟨Cert.KernelIdeal.S49152x2, .i32⟩ : BufTy).Contents (Elt Ideal)) : FVec Ideal Cert.KernelIdeal.S49152x51 .f32 :=
  fun i => Cert.RelHead.relHead
    (Cert.HostChain.K.pairRows (F := Ideal) (fun i => Cert.BiasLayer.affine a0 a2 a3 i) a12) a4 a5 a1 a6 a7 a8 a9
    (Cert.HostChain.K.freqRows (F := Ideal) a10 a11 a12) i

/-- The kernel program's result is the head of its arguments. -/
theorem kernel_result (m : (ℓ : Loc Cert.KernelIdeal.nD Cert.KernelIdeal.τ Cert.KernelIdeal.sig) → Buf (Elt Ideal) ℓ) (c : Dev Cert.KernelIdeal.nD) :
    Cert.KernelIdeal.Boundary.result m c
      = headOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) := rfl

/-- The reference program's result is the head of its arguments: the two spellings of the host glue are one function. -/
theorem reference_result (m' : (ℓ : Loc Cert.ReferenceIdeal.nD Cert.ReferenceIdeal.τ Cert.ReferenceIdeal.sig) → Buf (Elt Ideal) ℓ) (c : Dev Cert.ReferenceIdeal.nD) :
    Cert.ReferenceIdeal.RefValue.result m' c
      = headOf (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12)) := rfl

/-- From memories that agree on the thirteen arguments the two programs' results are equal. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RefValue.result m' c = Cert.KernelIdeal.Boundary.result m c := by
  obtain ⟨h0, h1, h2, h3, h4, h5, h6, h7, h8, h9, h10, h11, h12⟩ := hagree
  rw [reference_result, kernel_result, h0, h1, h2, h3, h4, h5, h6, h7, h8, h9, h10, h11, h12]

/-- At the ideal values the kernel program's result buffer ends at the relation head of its arguments (the two
    regions' write-backs read back) and the reference's at the same head (its run's term read entry by entry). -/
theorem algebraic : Cert.algebraic_KernelIdeal_ReferenceIdeal := by
  intro m ρ m' ρ' _ hagree
  refine ⟨fun c => Cert.KernelIdeal.Boundary.result m c, ?_, ?_⟩
  · exact (θ_run Cert.KernelIdeal.defs _ _).mono
      (fun _ h c => ⟨(h c).1.trans (Cert.KernelIdeal.Boundary.result_eq m ρ c), (h c).2⟩)
      (Cert.KernelIdeal.Named.run_named (F := Ideal) m ρ)
  · exact (θ_run Cert.ReferenceIdeal.defs _ _).mono
      (fun _ h c => ⟨(h c).1.trans ((Cert.ReferenceIdeal.RefValue.result_eq m' c).trans (results_agree m m' c (hagree c))), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
